-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S262144x256 : Shape := ⟨2, ![262144, 256]⟩
abbrev S1024 : Shape := ⟨1, ![1024]⟩
abbrev S1024x256 : Shape := ⟨2, ![1024, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : IVec S262144 32) (main_arg1 : FVec F S262144x256 .f32) (main_arg2 : FVec F S1024 .f32) (main_arg3 : FVec F S1024x256 .f32) : IVec S_ 1 :=
  let main_v0 : FVec F S262144x256 .f32 := Host.absf main_arg1
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Kernel.lean ====
abbrev S262144 : Shape := ⟨1, ![262144]⟩
abbrev S262144x256 : Shape := ⟨2, ![262144, 256]⟩
abbrev S1024 : Shape := ⟨1, ![1024]⟩
abbrev S1024x256 : Shape := ⟨2, ![1024, 256]⟩
abbrev S2x1024x256 : Shape := ⟨3, ![2, 1024, 256]⟩
abbrev S2x8x1024 : Shape := ⟨3, ![2, 8, 1024]⟩
abbrev S2048 : Shape := ⟨1, ![2048]⟩
abbrev S2048x256 : Shape := ⟨2, ![2048, 256]⟩
abbrev S1x1024x256 : Shape := ⟨3, ![1, 1024, 256]⟩
abbrev S1x8x1024 : Shape := ⟨3, ![1, 8, 1024]⟩
abbrev S8x1024 : Shape := ⟨2, ![8, 1024]⟩
abbrev S2048x1024 : Shape := ⟨2, ![2048, 1024]⟩
abbrev S2048x1 : Shape := ⟨2, ![2048, 1]⟩
abbrev S8x2048 : Shape := ⟨2, ![8, 2048]⟩
abbrev S_ : Shape := ⟨0, ![]⟩
abbrev S1x1024 : Shape := ⟨2, ![1, 1024]⟩
abbrev S1024x1 : Shape := ⟨2, ![1024, 1]⟩

abbrev nBuf : Space → Nat
  | .hbm => 40
  | .vmem => 10
  | .smem => 0
  | _ => 0

abbrev bufTy : (tb : Table) → Fin (tcTables nBuf tb) → BufTy
  | .hbm, ⟨0, _⟩ => ⟨S262144, .i32⟩
  | .hbm, ⟨1, _⟩ => ⟨S262144x256, .f32⟩
  | .hbm, ⟨2, _⟩ => ⟨S1024, .f32⟩
  | .hbm, ⟨3, _⟩ => ⟨S1024x256, .f32⟩
  | .hbm, ⟨4, _⟩ => ⟨S2x1024x256, .f32⟩
  | .hbm, ⟨5, _⟩ => ⟨S2x8x1024, .f32⟩
  | .hbm, ⟨6, _⟩ => ⟨S_, .f32⟩
  | .hbm, ⟨7, _⟩ => ⟨S1024x256, .f32⟩
  | .hbm, ⟨8, _⟩ => ⟨S_, .f32⟩
  | .hbm, ⟨9, _⟩ => ⟨S8x1024, .f32⟩
  | .hbm, ⟨10, _⟩ => ⟨S1x1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024x1, .f32⟩
  | .hbm, ⟨38, _⟩ => ⟨S1024x256, .f32⟩
  | .hbm, ⟨39, _⟩ => ⟨S1024x256, .f32⟩
  | .local _ .vmem, ⟨0, _⟩ => ⟨S2048, .i32⟩
  | .local _ .vmem, ⟨1, _⟩ => ⟨S2048, .i32⟩
  | .local _ .vmem, ⟨2, _⟩ => ⟨S2048x256, .f32⟩
  | .local _ .vmem, ⟨3, _⟩ => ⟨S2048x256, .f32⟩
  | .local _ .vmem, ⟨4, _⟩ => ⟨S1x1024x256, .f32⟩
  | .local _ .vmem, ⟨5, _⟩ => ⟨S1x1024x256, .f32⟩
  | .local _ .vmem, ⟨6, _⟩ => ⟨S1x8x1024, .f32⟩
  | .local _ .vmem, ⟨7, _⟩ => ⟨S1x8x1024, .f32⟩
  | .local _ .vmem, ⟨8, _⟩ => ⟨S1024x256, .f32⟩
  | .local _ .vmem, ⟨9, _⟩ => ⟨S8x1024, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_cst_7 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v26 : BitVec 1 := Scalar.cmpi .eq arg1 c63_i32
  let v27 : BitVec 32 := Scalar.extui v26
  let c0_i32_13 : BitVec 32 := 0#32
  let v28 : BitVec 1 := Scalar.cmpi .ne v27 c0_i32_13
  v28

def cc0_transform_0 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S2048_S2048_0 : ∀ a, (![0] : Fin 1 → Nat) a + S2048.size a ≤ S2048.size a
  h_S2048 : 0 < S2048.numel
  iota_S2048x1024_d1_w32 : S2048x1024.Iotas .tc 32 [1]
  shapeCasts_S2048_S2048x1 : S2048.ShapeCasts S2048x1
  broadcasts_S2048x1_S2048x1024 : S2048x1.Broadcasts S2048x1024
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  shapeCasts_S8x1024_S1x8x1024 : S8x1024.ShapeCasts S1x8x1024
  reducesTo_S2x1024x256_S1024x256_d0 : S2x1024x256.ReducesTo [0] S1024x256
  h_S_ : 0 < S_.numel
  reducesTo_S2x8x1024_S8x1024_d0 : S2x8x1024.ReducesTo [0] S8x1024
  slices_S8x1024_S1x1024_0_0 : S8x1024.Slices ![0, 0] S1x1024
  shapeCasts_S1x1024_S1024 : S1x1024.ShapeCasts S1024
  bcast_S_S1024 : S_.BroadcastsInDim S1024 (![] : Fin 0 → Fin S1024.rank)
  bcast_S_S1024x256 : S_.BroadcastsInDim S1024x256 (![] : Fin 0 → Fin S1024x256.rank)
  reducesTo_S1024_S_d0 : S1024.ReducesTo [0] S_
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  dot_S2048x1024_S2048x256_S1024x256_0_0_1_1_n_n_wf : DotDims.WF S2048x1024 S2048x256 S1024x256 [0] [0] [1] [1] [] []
  dot_S8x2048_S2048x1024_S8x1024_1_0_0_1_n_n_wf : DotDims.WF S8x2048 S2048x1024 S8x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S262144.size a
  hwx0_0 : ∀ i : grid0.Coords, EltTy.bits .i32 = 32 ∨ (Rect.block (s := S262144) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .f32 = 32 ∨ (Rect.block (s := S262144x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1024.size a ≤ S2x8x1024.size a
  hwx0_3 : ∀ i : grid0.Coords, EltTy.bits .f32 = 32 ∨ (Rect.block (s := S2x8x1024) S1x8x1024.size (cc0_transform_3 i) (hinb0_3 i)).WholeWords (EltTy.packing .f32)

variable [Facts₀]

def dot_S2048x1024_S2048x256_S1024x256_0_0_1_1_n_n : DotDims S2048x1024 S2048x256 S1024x256 where
  lhsContracting := [0]
  rhsContracting := [0]
  lhsNonContracting := [1]
  rhsNonContracting := [1]
  lhsBatch := []
  rhsBatch := []
  wf := dot_S2048x1024_S2048x256_S1024x256_0_0_1_1_n_n_wf
def dot_S8x2048_S2048x1024_S8x1024_1_0_0_1_n_n : DotDims S8x2048 S2048x1024 S8x1024 where
  lhsContracting := [1]
  rhsContracting := [0]
  lhsNonContracting := [0]
  rhsNonContracting := [1]
  lhsBatch := []
  rhsBatch := []
  wf := dot_S8x2048_S2048x1024_S8x1024_1_0_0_1_n_n_wf

abbrev win0_0 : Pipeline.Window sig grid0 :=
  Pipeline.Window.ofSpec (Memref.whole main_arg0) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S262144 : Shape := ⟨1, ![262144]⟩
abbrev S262144x256 : Shape := ⟨2, ![262144, 256]⟩
abbrev S1024 : Shape := ⟨1, ![1024]⟩
abbrev S1024x256 : Shape := ⟨2, ![1024, 256]⟩
abbrev S_ : Shape := ⟨0, ![]⟩
abbrev S262144x1 : Shape := ⟨2, ![262144, 1]⟩
abbrev S1024x1 : Shape := ⟨2, ![1024, 1]⟩

abbrev nBuf : Space → Nat
  | .hbm => 42
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144x256, .f32⟩
  | .hbm, ⟨2, _⟩ => ⟨S1024, .f32⟩
  | .hbm, ⟨3, _⟩ => ⟨S1024x256, .f32⟩
  | .hbm, ⟨4, _⟩ => ⟨S_, .f32⟩
  | .hbm, ⟨5, _⟩ => ⟨S262144, .f32⟩
  | .hbm, ⟨6, _⟩ => ⟨S_, .f32⟩
  | .hbm, ⟨7, _⟩ => ⟨S1024, .f32⟩
  | .hbm, ⟨8, _⟩ => ⟨S262144x1, .i32⟩
  | .hbm, ⟨9, _⟩ => ⟨S1024, .f32⟩
  | .hbm, ⟨10, _⟩ => ⟨S_, .f32⟩
  | .hbm, ⟨11, _⟩ => ⟨S1024x256, .f32⟩
  | .hbm, ⟨12, _⟩ => ⟨S262144x1, .i32⟩
  | .hbm, ⟨13, _⟩ => ⟨S1024x256, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S_, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024x1, .f32⟩
  | .hbm, ⟨40, _⟩ => ⟨S1024x256, .f32⟩
  | .hbm, ⟨41, _⟩ => ⟨S1024x256, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S1024 : S_.BroadcastsInDim S1024 (![] : Fin 0 → Fin S1024.rank)
  bcast_S262144_S262144x1_0 : S262144.BroadcastsInDim S262144x1 (![0] : Fin 1 → Fin S262144x1.rank)
  bcast_S_S1024x256 : S_.BroadcastsInDim S1024x256 (![] : Fin 0 → Fin S1024x256.rank)
  reducesTo_S1024_S_d0 : S1024.ReducesTo [0] S_
  h_S_ : 0 < S_.numel
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  scatter_S1024_S262144x1_S262144_n_0_0_1_wf : ScatterDims.WF S1024 S262144x1 S262144 [] [0] [0] 1
  scatter_S1024x256_S262144x1_S262144x256_1_0_0_1_wf : ScatterDims.WF S1024x256 S262144x1 S262144x256 [1] [0] [0] 1

variable [Facts₀]

def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf
def scatter_S1024x256_S262144x1_S262144x256_1_0_0_1 : ScatterDims S1024x256 S262144x1 S262144x256 where
  updateWindowDims := [1]
  insertedWindowDims := [0]
  scatterDimsToOperandDims := [0]
  indexVectorDim := 1
  wf := scatter_S1024x256_S262144x1_S262144x256_1_0_0_1_wf

class Facts : Prop extends Facts₀ where

variable [Facts]
-- ==== Proof.Pieces.lean ====
/-
  What one grid step leaves behind, as terms of what it loaded (any float instance).

  The grid is 2 × 64: 128 steps, step t working on tile t of 2048 rows, steps 0..63 for the first
  half's output block and 64..127 for the second's. Two scratch buffers carry the running sums
  (1024 × 256) and running counts (8 × 1024) from step to step. A half's first step zeroes them before it adds
  its tile; every step adds its tile; a half's last step then copies both to the half's output blocks.
  Each lemma reads the stores the step's run found back as one term over the step's loads.
-/
import proofs.«401097_j33904471835537_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Codebook

open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl
theorem off1 : (![0] : Fin 1 → Nat) = fun _ => 0 := funext fun a => by fin_cases a <;> rfl

/-- At a half's first step the running sums are zeroed, read back, and the tile added: the step's sums over zeros. -/
theorem sums_first (c : Dev nD) (i : grid0.Coords) (arg2 : Memref sig .tc .vmem S2048 .i32) (harg2 : arg2.IsWhole) (arg3 : Memref sig .tc .vmem S2048x256 .f32) (harg3 : arg3.IsWhole) (arg4 : Memref sig .tc .vmem S1x1024x256 .f32) (harg4 : arg4.IsWhole) (arg5 : Memref sig .tc .vmem S1x8x1024 .f32) (harg5 : arg5.IsWhole) (arg6 : Memref sig .tc .vmem S1024x256 .f32) (harg6 : arg6.IsWhole) (arg7 : Memref sig .tc .vmem S8x1024 .f32) (harg7 : arg7.IsWhole) (hc0 : cond0_0 i) (hc1 : ¬cond0_1 i)
    (x0 : Vec F S2048 .i32) (x1 : Vec F S2048x256 .f32) :
    sout0_A_0 c i arg2 harg2 arg3 harg3 arg4 harg4 arg5 harg5 arg6 harg6 arg7 harg7 hc0 hc1 x0 x1 = k0_pay4 x0 x1 k0_pay1 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x256) off2, View.readCov_unit_zero (S := S1024x256) _ off2]
  simp only [View.readAt_eq_ld, harg2.read_unread, harg3.read_unread, harg6.read_unread, harg7.read_unread, View.ld_unit_zero (S := S1024x256) off2, View.ld_unit_zero (S := S8x1024) off2, View.ld_unit_zero (S := S2048) off1, View.ld_unit_zero (S := S2048x256) off2]

/-- At a half's first step the running counts are zeroed, read back, and the tile's counts added. -/
theorem counts_first (c : Dev nD) (i : grid0.Coords) (arg2 : Memref sig .tc .vmem S2048 .i32) (harg2 : arg2.IsWhole) (arg3 : Memref sig .tc .vmem S2048x256 .f32) (harg3 : arg3.IsWhole) (arg4 : Memref sig .tc .vmem S1x1024x256 .f32) (harg4 : arg4.IsWhole) (arg5 : Memref sig .tc .vmem S1x8x1024 .f32) (harg5 : arg5.IsWhole) (arg6 : Memref sig .tc .vmem S1024x256 .f32) (harg6 : arg6.IsWhole) (arg7 : Memref sig .tc .vmem S8x1024 .f32) (harg7 : arg7.IsWhole) (hc0 : cond0_0 i) (hc1 : ¬cond0_1 i)
    (x0 : Vec F S2048 .i32) (x1 : Vec F S2048x256 .f32) :
    sout0_A_1 c i arg2 harg2 arg3 harg3 arg4 harg4 arg5 harg5 arg6 harg6 arg7 harg7 hc0 hc1 x0 x1 = k0_pay5 x0 k0_pay2 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S8x1024) off2, View.readCov_unit_zero (S := S8x1024) _ off2]
  simp only [View.readAt_eq_ld, harg2.read_unread, harg3.read_unread, harg6.read_unread, harg7.read_unread, View.ld_unit_zero (S := S1024x256) off2, View.ld_unit_zero (S := S8x1024) off2, View.ld_unit_zero (S := S2048) off1, View.ld_unit_zero (S := S2048x256) off2]

/-- At a middle step the tile is added to the sums the step before left. -/
theorem sums_mid (c : Dev nD) (i : grid0.Coords) (arg2 : Memref sig .tc .vmem S2048 .i32) (harg2 : arg2.IsWhole) (arg3 : Memref sig .tc .vmem S2048x256 .f32) (harg3 : arg3.IsWhole) (arg4 : Memref sig .tc .vmem S1x1024x256 .f32) (harg4 : arg4.IsWhole) (arg5 : Memref sig .tc .vmem S1x8x1024 .f32) (harg5 : arg5.IsWhole) (arg6 : Memref sig .tc .vmem S1024x256 .f32) (harg6 : arg6.IsWhole) (arg7 : Memref sig .tc .vmem S8x1024 .f32) (harg7 : arg7.IsWhole) (hc0 : ¬cond0_0 i) (hc1 : ¬cond0_1 i)
    (x0 : Vec F S2048 .i32) (x1 : Vec F S2048x256 .f32) (xs0 : Vec F S1024x256 .f32) (xs1 : Vec F S8x1024 .f32) :
    sout0_B_0 c i arg2 harg2 arg3 harg3 arg4 harg4 arg5 harg5 arg6 harg6 arg7 harg7 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero off2]
  simp only [View.readAt_eq_ld, harg2.read_unread, harg3.read_unread, harg6.read_unread, harg7.read_unread, View.ld_unit_zero (S := S1024x256) off2, View.ld_unit_zero (S := S8x1024) off2, View.ld_unit_zero (S := S2048) off1, View.ld_unit_zero (S := S2048x256) off2]

/-- At a middle step the tile's counts are added to the counts the step before left. -/
theorem counts_mid (c : Dev nD) (i : grid0.Coords) (arg2 : Memref sig .tc .vmem S2048 .i32) (harg2 : arg2.IsWhole) (arg3 : Memref sig .tc .vmem S2048x256 .f32) (harg3 : arg3.IsWhole) (arg4 : Memref sig .tc .vmem S1x1024x256 .f32) (harg4 : arg4.IsWhole) (arg5 : Memref sig .tc .vmem S1x8x1024 .f32) (harg5 : arg5.IsWhole) (arg6 : Memref sig .tc .vmem S1024x256 .f32) (harg6 : arg6.IsWhole) (arg7 : Memref sig .tc .vmem S8x1024 .f32) (harg7 : arg7.IsWhole) (hc0 : ¬cond0_0 i) (hc1 : ¬cond0_1 i)
    (x0 : Vec F S2048 .i32) (x1 : Vec F S2048x256 .f32) (xs0 : Vec F S1024x256 .f32) (xs1 : Vec F S8x1024 .f32) :
    sout0_B_1 c i arg2 harg2 arg3 harg3 arg4 harg4 arg5 harg5 arg6 harg6 arg7 harg7 hc0 hc1 x0 x1 xs0 xs1 = k0_pay5 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero off2]
  simp only [View.readAt_eq_ld, harg2.read_unread, harg3.read_unread, harg6.read_unread, harg7.read_unread, View.ld_unit_zero (S := S1024x256) off2, View.ld_unit_zero (S := S8x1024) off2, View.ld_unit_zero (S := S2048) off1, View.ld_unit_zero (S := S2048x256) off2]

/-- At a half's last step the tile is added to the sums the step before left, -/
theorem sums_last (c : Dev nD) (i : grid0.Coords) (arg2 : Memref sig .tc .vmem S2048 .i32) (harg2 : arg2.IsWhole) (arg3 : Memref sig .tc .vmem S2048x256 .f32) (harg3 : arg3.IsWhole) (arg4 : Memref sig .tc .vmem S1x1024x256 .f32) (harg4 : arg4.IsWhole) (arg5 : Memref sig .tc .vmem S1x8x1024 .f32) (harg5 : arg5.IsWhole) (arg6 : Memref sig .tc .vmem S1024x256 .f32) (harg6 : arg6.IsWhole) (arg7 : Memref sig .tc .vmem S8x1024 .f32) (harg7 : arg7.IsWhole) (hc0 : ¬cond0_0 i) (hc1 : cond0_1 i)
    (x0 : Vec F S2048 .i32) (x1 : Vec F S2048x256 .f32) (xs0 : Vec F S1024x256 .f32) (xs1 : Vec F S8x1024 .f32) :
    sout0_C_0 c i arg2 harg2 arg3 harg3 arg4 harg4 arg5 harg5 arg6 harg6 arg7 harg7 hc0 hc1 x0 x1 xs0 xs1 = k0_pay4 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero off2]
  simp only [View.readAt_eq_ld, harg2.read_unread, harg3.read_unread, harg6.read_unread, harg7.read_unread, View.ld_unit_zero (S := S1024x256) off2, View.ld_unit_zero (S := S8x1024) off2, View.ld_unit_zero (S := S2048) off1, View.ld_unit_zero (S := S2048x256) off2]

/-- the tile's counts to the counts the step before left, -/
theorem counts_last (c : Dev nD) (i : grid0.Coords) (arg2 : Memref sig .tc .vmem S2048 .i32) (harg2 : arg2.IsWhole) (arg3 : Memref sig .tc .vmem S2048x256 .f32) (harg3 : arg3.IsWhole) (arg4 : Memref sig .tc .vmem S1x1024x256 .f32) (harg4 : arg4.IsWhole) (arg5 : Memref sig .tc .vmem S1x8x1024 .f32) (harg5 : arg5.IsWhole) (arg6 : Memref sig .tc .vmem S1024x256 .f32) (harg6 : arg6.IsWhole) (arg7 : Memref sig .tc .vmem S8x1024 .f32) (harg7 : arg7.IsWhole) (hc0 : ¬cond0_0 i) (hc1 : cond0_1 i)
    (x0 : Vec F S2048 .i32) (x1 : Vec F S2048x256 .f32) (xs0 : Vec F S1024x256 .f32) (xs1 : Vec F S8x1024 .f32) :
    sout0_C_1 c i arg2 harg2 arg3 harg3 arg4 harg4 arg5 harg5 arg6 harg6 arg7 harg7 hc0 hc1 x0 x1 xs0 xs1 = k0_pay5 x0 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero off2]
  simp only [View.readAt_eq_ld, harg2.read_unread, harg3.read_unread, harg6.read_unread, harg7.read_unread, View.ld_unit_zero (S := S1024x256) off2, View.ld_unit_zero (S := S8x1024) off2, View.ld_unit_zero (S := S2048) off1, View.ld_unit_zero (S := S2048x256) off2]

/-- and the finished sums are read back and written to the half's output block, -/
theorem outSums_last (c : Dev nD) (i : grid0.Coords) (arg2 : Memref sig .tc .vmem S2048 .i32) (harg2 : arg2.IsWhole) (arg3 : Memref sig .tc .vmem S2048x256 .f32) (harg3 : arg3.IsWhole) (arg4 : Memref sig .tc .vmem S1x1024x256 .f32) (harg4 : arg4.IsWhole) (arg5 : Memref sig .tc .vmem S1x8x1024 .f32) (harg5 : arg5.IsWhole) (arg6 : Memref sig .tc .vmem S1024x256 .f32) (harg6 : arg6.IsWhole) (arg7 : Memref sig .tc .vmem S8x1024 .f32) (harg7 : arg7.IsWhole) (hc0 : ¬cond0_0 i) (hc1 : cond0_1 i)
    (x0 : Vec F S2048 .i32) (x1 : Vec F S2048x256 .f32) (xs0 : Vec F S1024x256 .f32) (xs1 : Vec F S8x1024 .f32) :
    out0_C_2 c i arg2 harg2 arg3 harg3 arg4 harg4 arg5 harg5 arg6 harg6 arg7 harg7 hc0 hc1 x0 x1 xs0 xs1 = k0_pay6 (k0_pay4 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero off3]
  simp only [View.readAt_eq_ld, harg2.read_unread, harg3.read_unread, harg6.read_unread, harg7.read_unread, View.readCov_unit_zero (S := S1024x256) _ off2, View.readCov_unit_zero (S := S8x1024) _ off2, View.ld_unit_zero (S := S1024x256) off2, View.ld_unit_zero (S := S8x1024) off2, View.ld_unit_zero (S := S2048) off1, View.ld_unit_zero (S := S2048x256) off2]

/-- the finished counts to the half's count block. -/
theorem outCounts_last (c : Dev nD) (i : grid0.Coords) (arg2 : Memref sig .tc .vmem S2048 .i32) (harg2 : arg2.IsWhole) (arg3 : Memref sig .tc .vmem S2048x256 .f32) (harg3 : arg3.IsWhole) (arg4 : Memref sig .tc .vmem S1x1024x256 .f32) (harg4 : arg4.IsWhole) (arg5 : Memref sig .tc .vmem S1x8x1024 .f32) (harg5 : arg5.IsWhole) (arg6 : Memref sig .tc .vmem S1024x256 .f32) (harg6 : arg6.IsWhole) (arg7 : Memref sig .tc .vmem S8x1024 .f32) (harg7 : arg7.IsWhole) (hc0 : ¬cond0_0 i) (hc1 : cond0_1 i)
    (x0 : Vec F S2048 .i32) (x1 : Vec F S2048x256 .f32) (xs0 : Vec F S1024x256 .f32) (xs1 : Vec F S8x1024 .f32) :
    out0_C_3 c i arg2 harg2 arg3 harg3 arg4 harg4 arg5 harg5 arg6 harg6 arg7 harg7 hc0 hc1 x0 x1 xs0 xs1 = k0_pay7 (k0_pay5 x0 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero off3]
  simp only [View.readAt_eq_ld, harg2.read_unread, harg3.read_unread, harg6.read_unread, harg7.read_unread, View.readCov_unit_zero (S := S1024x256) _ off2, View.readCov_unit_zero (S := S8x1024) _ off2, View.ld_unit_zero (S := S1024x256) off2, View.ld_unit_zero (S := S8x1024) off2, View.ld_unit_zero (S := S2048) off1, View.ld_unit_zero (S := S2048x256) off2]

end Cert.KernelIdeal.Codebook

end
-- ==== Proof.Steps.lean ====
/-
  The running sums and counts after every grid step (any float instance).

  Step `t` adds tile `t` to what step `t - 1` left, except at a half's first step (t = 0, 64), which starts
  from zeros: `sumsAt` and `countsAt` are that recursion, and the scratch contents the frame's run
  found point by point are these (by induction on the step, one case per kind of step). At a half's last
  step (t = 63, 127) the output blocks receive copies of them.
-/
import proofs.«401097_j33904471835537_2_alg».proof.Proof.Pieces

noncomputable section

open Idealize.ShloMosaic Idealize.ShloMosaic.TcCoe Idealize.SL.Sem
open Idealize.ShloMosaic.Pipeline (Dat)

namespace Cert.KernelIdeal.Codebook

open Cert.KernelIdeal Cert.KernelIdeal.Gen

variable {F : FTy → Type} [FloatOps F]
variable (m : (ℓ : Loc nD τ sig) → Buf (Elt F) ℓ)

/-- The code words of step `t`'s tile, as the step finds them staged. -/
abbrev codes (c : Dev nD) (t : Fin cfg0.N) : Vec F S2048 .i32 := iblk m c 0 t
/-- The entries of step `t`'s tile. -/
abbrev rows (c : Dev nD) (t : Fin cfg0.N) : Vec F S2048x256 .f32 := iblk m c 1 t

/-- The running sums after step `n`. -/
def sumsAt (c : Dev nD) : (n : ℕ) → n < cfg0.N → Vec F S1024x256 .f32
  | 0, h => k0_pay4 (codes m c ⟨0, h⟩) (rows m c ⟨0, h⟩) k0_pay1
  | n + 1, h =>
    if (n + 1) % 64 = 0 then k0_pay4 (codes m c ⟨n + 1, h⟩) (rows m c ⟨n + 1, h⟩) k0_pay1
    else k0_pay4 (codes m c ⟨n + 1, h⟩) (rows m c ⟨n + 1, h⟩) (sumsAt c n (Nat.lt_of_succ_lt h))

/-- The running counts after step `n`. -/
def countsAt (c : Dev nD) : (n : ℕ) → n < cfg0.N → Vec F S8x1024 .f32
  | 0, h => k0_pay5 (codes m c ⟨0, h⟩) k0_pay2
  | n + 1, h =>
    if (n + 1) % 64 = 0 then k0_pay5 (codes m c ⟨n + 1, h⟩) k0_pay2
    else k0_pay5 (codes m c ⟨n + 1, h⟩) (countsAt c n (Nat.lt_of_succ_lt h))

/-- The two scratch buffers after step `n`, as the run found them, hold the running sums and counts. -/
theorem scratch_eq (c : Dev nD) : ∀ (n : ℕ) (h : n < cfg0.N),
    (outsAt0 m c n h).2.2.1 = sumsAt m c n h ∧ (outsAt0 m c n h).2.2.2 = countsAt m c n h
  | 0, h => by
    rw [outsAt0_A m c ⟨0, h⟩ rfl (by dsimp only; omega)]
    dsimp only
    exact ⟨sums_first .., counts_first ..⟩
  | n + 1, h => by
    have ih := scratch_eq c n (Nat.lt_of_succ_lt h)
    by_cases h0 : (n + 1) % 64 = 0
    · have h1 : ¬(n + 1) % 64 = 63 := by omega
      rw [outsAt0_A m c ⟨n + 1, h⟩ h0 h1]
      dsimp only
      rw [sumsAt, countsAt, if_pos h0, if_pos h0]
      exact ⟨sums_first .., counts_first ..⟩
    · by_cases h1 : (n + 1) % 64 = 63
      · rw [outsAt0_C m c ⟨n + 1, h⟩ h0 h1]
        dsimp only
        rw [sumsAt, countsAt, if_neg h0, if_neg h0, sums_last, counts_last]
        show k0_pay4 _ _ (outsAt0 m c n _).2.2.1 = _ ∧ k0_pay5 _ (outsAt0 m c n _).2.2.2 = _
        rw [ih.1, ih.2]
        exact ⟨rfl, rfl⟩
      · rw [outsAt0_B m c ⟨n + 1, h⟩ h0 h1]
        dsimp only
        rw [sumsAt, countsAt, if_neg h0, if_neg h0, sums_mid, counts_mid]
        show k0_pay4 _ _ (outsAt0 m c n _).2.2.1 = _ ∧ k0_pay5 _ (outsAt0 m c n _).2.2.2 = _
        rw [ih.1, ih.2]
        exact ⟨rfl, rfl⟩

/-- At a half's last step the sums' output block receives the running sums, the counts' block the running counts. -/
theorem outputs_last (c : Dev nD) (t : Fin cfg0.N) (h1 : t.val % 64 = 63) :
    (outsAt0 m c t.val t.isLt).1 = k0_pay6 (sumsAt m c t.val t.isLt)
      ∧ (outsAt0 m c t.val t.isLt).2.1 = k0_pay7 (countsAt m c t.val t.isLt) := by
  obtain ⟨n, h⟩ := t
  have h0 : ¬n % 64 = 0 := by dsimp only at h1; omega
  cases n with
  | zero => exact absurd rfl h0
  | succ n =>
    have ih := scratch_eq m c n (Nat.lt_of_succ_lt h)
    rw [outsAt0_C m c ⟨n + 1, h⟩ h0 h1]
    dsimp only
    rw [sumsAt, countsAt, if_neg h0, if_neg h0, outSums_last, outCounts_last]
    show k0_pay6 (k0_pay4 _ _ (outsAt0 m c n _).2.2.1) = _ ∧ k0_pay7 (k0_pay5 _ (outsAt0 m c n _).2.2.2) = _
    rw [ih.1, ih.2]
    exact ⟨rfl, rfl⟩

end Cert.KernelIdeal.Codebook

end
-- ==== Proof.CodebookSums.lean ====
/-
  Per-code sums over the rows of a table, tile by tile.

  262144 rows each carry a 32-bit code word; code `k` (of 1024) collects the rows whose word is `k`'s.
  `count k` is the number of such rows and `total k d` the sum of their entries in column `d`, both
  written as sums over ALL rows of an indicator (`hit`) times the entry, over the extended reals
  (where `0 * x = 0` and `1 * x = x` for every `x`, infinite ones included, and addition is
  commutative and associative: no finiteness is needed anywhere here).

  The rows are cut into 128 tiles of 2048 consecutive rows, and the tiles into two halves of 64.
  `runTotal p` is the sum of the tiles of `p`'s half up to and including `p`: it starts afresh at the
  first tile of a half (`runTotal_first`), grows by one tile at each later one (`runTotal_next`), and
  the two halves' last running sums add up to the sum over all rows (`total_eq_halves`).
-/
import Idealize.ShloMosaic.PureOps.Ideal
import Mathlib.Algebra.BigOperators.Fin
import Mathlib.Algebra.BigOperators.Intervals

noncomputable section

namespace CodebookSums

/-- One where a row's code word is the word of code `k`, zero elsewhere. -/
def hit (w : BitVec 32) (k : Fin 1024) : EReal := if w = BitVec.ofNat 32 k.val then 1 else 0

/-- Row `r` of tile `p`: the tiles are runs of 2048 consecutive rows. -/
def row (p : Fin 128) (r : Fin 2048) : Fin 262144 := ⟨p.val * 2048 + r.val, by have := p.isLt; have := r.isLt; omega⟩

variable (idx : Fin 262144 → BitVec 32) (enc : Fin 262144 → Fin 256 → EReal)

/-- The rows of tile `p` with code `k`, counted. -/
def tileCount (p : Fin 128) (k : Fin 1024) : EReal := ∑ r : Fin 2048, hit (idx (row p r)) k

/-- Column `d` summed over the rows of tile `p` with code `k`. -/
def tileTotal (p : Fin 128) (k : Fin 1024) (d : Fin 256) : EReal :=
  ∑ r : Fin 2048, hit (idx (row p r)) k * enc (row p r) d

/-- The tiles of `p`'s half of the table, up to and including `p`. -/
def upTo (p : Fin 128) : Finset (Fin 128) := Finset.univ.filter fun q => q.val / 64 = p.val / 64 ∧ q.val ≤ p.val

/-- The running count over the tiles of `p`'s half up to `p`. -/
def runCount (p : Fin 128) (k : Fin 1024) : EReal := ∑ q ∈ upTo p, tileCount idx q k

/-- The running column sum over the tiles of `p`'s half up to `p`. -/
def runTotal (p : Fin 128) (k : Fin 1024) (d : Fin 256) : EReal := ∑ q ∈ upTo p, tileTotal idx enc q k d

/-- All rows with code `k`, counted. -/
def count (k : Fin 1024) : EReal := ∑ n : Fin 262144, hit (idx n) k

/-- Column `d` summed over all rows with code `k`. -/
def total (k : Fin 1024) (d : Fin 256) : EReal := ∑ n : Fin 262144, hit (idx n) k * enc n d

/-- At the first tile of a half, the tiles up to `p` are `p` alone. -/
private theorem upTo_first (p : Fin 128) (h : p.val % 64 = 0) : upTo p = {p} := by
  ext q
  simp only [upTo, Finset.mem_filter, Finset.mem_univ, true_and, Finset.mem_singleton, Fin.ext_iff]
  have := p.isLt
  have := q.isLt
  omega

/-- At a later tile of a half, the tiles up to `p` are those up to its predecessor, and `p`. -/
private theorem upTo_next (q p : Fin 128) (hq : q.val + 1 = p.val) (h : ¬p.val % 64 = 0) :
    upTo p = insert p (upTo q) ∧ p ∉ upTo q := by
  have := p.isLt
  have := q.isLt
  constructor
  · ext t
    simp only [upTo, Finset.mem_filter, Finset.mem_univ, true_and, Finset.mem_insert, Fin.ext_iff]
    have := t.isLt
    omega
  · simp only [upTo, Finset.mem_filter, Finset.mem_univ, true_and]
    omega

/-- The tiles up to 63 and the tiles up to 127 are the two halves: disjoint, and together all. -/
private theorem upTo_halves :
    Disjoint (upTo (⟨63, by omega⟩ : Fin 128)) (upTo (⟨127, by omega⟩ : Fin 128)) ∧
      upTo (⟨63, by omega⟩ : Fin 128) ∪ upTo (⟨127, by omega⟩ : Fin 128) = Finset.univ := by
  constructor
  · rw [Finset.disjoint_left]
    intro t
    simp only [upTo, Finset.mem_filter, Finset.mem_univ, true_and]
    omega
  · ext t
    simp only [upTo, Finset.mem_union, Finset.mem_filter, Finset.mem_univ, true_and, iff_true]
    have := t.isLt
    omega

/-- Every row lies in exactly one tile, at exactly one place in it. -/
private theorem row_bijective : Function.Bijective (fun x : Fin 128 × Fin 2048 => row x.1 x.2) := by
  constructor
  · rintro ⟨p, r⟩ ⟨p', r'⟩ hx
    have hv : p.val * 2048 + r.val = p'.val * 2048 + r'.val := congrArg Fin.val hx
    have := r.isLt
    have := r'.isLt
    have hp : p = p' := Fin.ext (by omega)
    have hr : r = r' := Fin.ext (by omega)
    rw [hp, hr]
  · intro n
    have := n.isLt
    refine ⟨(⟨n.val / 2048, by omega⟩, ⟨n.val % 2048, by omega⟩), ?_⟩
    apply Fin.ext
    show n.val / 2048 * 2048 + n.val % 2048 = n.val
    omega

/-- A sum over all rows is the sum over the tiles of the sums over each tile's rows. -/
private theorem sum_rows (f : Fin 262144 → EReal) :
    ∑ n : Fin 262144, f n = ∑ p : Fin 128, ∑ r : Fin 2048, f (row p r) := by
  rw [← Fintype.sum_prod_type' (f := fun p r => f (row p r))]
  exact (Function.Bijective.sum_comp row_bijective f).symm

/-- A sum over all tiles is the sum over the first half plus the sum over the second. -/
private theorem sum_halves (g : Fin 128 → EReal) :
    ∑ p : Fin 128, g p = ∑ p ∈ upTo (⟨63, by omega⟩ : Fin 128), g p + ∑ p ∈ upTo (⟨127, by omega⟩ : Fin 128), g p := by
  rw [← Finset.sum_union upTo_halves.1, upTo_halves.2]

theorem runCount_first (p : Fin 128) (h : p.val % 64 = 0) (k : Fin 1024) :
    runCount idx p k = tileCount idx p k := by
  unfold runCount
  rw [upTo_first p h, Finset.sum_singleton]

theorem runCount_next (q p : Fin 128) (hq : q.val + 1 = p.val) (h : ¬p.val % 64 = 0) (k : Fin 1024) :
    runCount idx p k = runCount idx q k + tileCount idx p k := by
  unfold runCount
  rw [(upTo_next q p hq h).1, Finset.sum_insert (upTo_next q p hq h).2, add_comm]

theorem runTotal_first (p : Fin 128) (h : p.val % 64 = 0) (k : Fin 1024) (d : Fin 256) :
    runTotal idx enc p k d = tileTotal idx enc p k d := by
  unfold runTotal
  rw [upTo_first p h, Finset.sum_singleton]

theorem runTotal_next (q p : Fin 128) (hq : q.val + 1 = p.val) (h : ¬p.val % 64 = 0) (k : Fin 1024) (d : Fin 256) :
    runTotal idx enc p k d = runTotal idx enc q k d + tileTotal idx enc p k d := by
  unfold runTotal
  rw [(upTo_next q p hq h).1, Finset.sum_insert (upTo_next q p hq h).2, add_comm]

/-- The two halves' last running counts are the count over all rows. -/
theorem count_eq_halves (k : Fin 1024) :
    count idx k = runCount idx ⟨63, by omega⟩ k + runCount idx ⟨127, by omega⟩ k := by
  unfold count runCount
  rw [sum_rows (fun n => hit (idx n) k), sum_halves]
  rfl

/-- The two halves' last running sums are the sum over all rows. -/
theorem total_eq_halves (k : Fin 1024) (d : Fin 256) :
    total idx enc k d = runTotal idx enc ⟨63, by omega⟩ k d + runTotal idx enc ⟨127, by omega⟩ k d := by
  unfold total runTotal
  rw [sum_rows (fun n => hit (idx n) k * enc n d), sum_halves]
  rfl

end CodebookSums

end
-- ==== Proof.TilePayload.lean ====
/-
  What one grid step of the kernel adds, read at one entry, over the extended reals.

  A step loads a tile of 2048 code words `x0` and the tile's 2048 × 256 entries `x1`. It builds the
  2048 × 1024 indicator matrix "row r has code k" (a compare of the word against the column number,
  widened and converted: 1 or 0), multiplies its transpose with the entries on the matrix unit, and adds
  the product to the running 1024 × 256 sums; a second product, of an 8 × 2048 matrix of ones with the
  indicator matrix, adds the tile's per-code counts to each of the 8 rows of the running 8 × 1024 counts.
  Format changes are the identity here, so at entry (k, d) the first is the old value plus
  `∑ r, hit (x0 r) k * x1 r d` and at (a, k) the second is the old value plus `∑ r, hit (x0 r) k`.
-/
import proofs.«401097_j33904471835537_2_alg».proof.Proof.Gen.KernelIdeal.Skeleton
import proofs.«401097_j33904471835537_2_alg».proof.Proof.CodebookSums
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Codebook

open Idealize.ShloMosaic Idealize.ShloMosaic.TcCoe Idealize.ShloMosaic.ValueIdx
open Cert.KernelIdeal Cert.KernelIdeal.Gen CodebookSums

/-- The reset stores zeros into the running sums. -/
theorem zeroSums_apply (j : S1024x256.Idx) : k0_pay1 (F := Ideal) j = 0 := by
  unfold k0_pay1
  rw [shapeCast_self]
  show Ideal.ofBits .f32 0x00000000#32 = 0
  exact Ideal.ofBits_zero_f32

/-- The reset stores zeros into the running counts. -/
theorem zeroCounts_apply (j : S8x1024.Idx) : k0_pay2 (F := Ideal) j = 0 := by
  unfold k0_pay2
  rw [shapeCast_self]
  show Ideal.ofBits .f32 0x00000000#32 = 0
  exact Ideal.ofBits_zero_f32

/-! ## The indicator matrix at an entry -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The compare's bit, widened to a word and converted to a float, is one where the two words agree and zero elsewhere. -/
private theorem eqBit_value (a b : BitVec 32) :
    FloatOps.sitofp (F := Ideal) .f32 ((IntOp.cmpi .eq a b).setWidth 32) = if a = b then 1 else 0 := by
  by_cases h : a = b
  · have hc : IntOp.cmpi .eq a b = 1#1 := by subst h; simp [IntOp.cmpi]
    have e : ((1#1 : BitVec 1).setWidth 32).toInt = 1 := by decide
    rw [if_pos h, hc]
    show ((((1#1 : BitVec 1).setWidth 32).toInt : ℝ) : EReal) = 1
    rw [e]; simp
  · have hne : (a == b) = false := beq_eq_false_iff_ne.2 h
    have hc : IntOp.cmpi .eq a b = 0#1 := by
      show BitVec.ofBool (a == b) = 0#1
      rw [hne]; rfl
    have e : ((0#1 : BitVec 1).setWidth 32).toInt = 0 := by decide
    rw [if_neg h, hc]
    show ((((0#1 : BitVec 1).setWidth 32).toInt : ℝ) : EReal) = 0
    rw [e]; simp

/-- The indicator matrix at row `r` and column `k`: the row's code word, carried along the row, is compared with the
    column number. -/
private theorem indicator_apply (x0 : Vec Ideal S2048 .i32) (r : Fin 2048) (k : Fin 1024) :
    k0_pay3 (F := Ideal) x0 (ix2 r k) = hit (x0 (ix1 r)) k := by
  have hb : broadcastTo S2048x1024 (shapeCast S2048x1 x0 shapeCasts_S2048_S2048x1) broadcasts_S2048x1_S2048x1024 (ix2 r k)
      = x0 (ix1 r) :=
    (broadcastTo_a1_ab_apply _ _ r k).trans (shapeCast_a_a1_apply x0 _ r 0)
  have hi : iota Kind.tc S2048x1024 32 [1] iota_S2048x1024_d1_w32 (ix2 r k) = BitVec.ofNat 32 k.val :=
    iota_single_apply _ _ _ _ _ _
  unfold k0_pay3 hit
  rw [truncf_apply, sitofp_apply, extui_apply]
  show FloatOps.sitofp (F := Ideal) .f32 ((IntOp.cmpi .eq
      (broadcastTo S2048x1024 (shapeCast S2048x1 x0 shapeCasts_S2048_S2048x1) broadcasts_S2048x1_S2048x1024 (ix2 r k))
      (iota Kind.tc S2048x1024 32 [1] iota_S2048x1024_d1_w32 (ix2 r k))).setWidth 32) = _
  rw [hb, hi]
  exact eqBit_value _ _

/-! ## The two products at an entry -/

/-! The operand indices of the first product (the indicator's transpose times the entries): at output entry `j` and
    contraction position `q`, the left operand is read at (q, j₀) and the right one at (q, j₁). -/

private theorem lhs_dot_S2048x1024_S2048x256_S1024x256_0_0_1_1_n_n_0 (j : S1024x256.Idx)
    (q : dot_S2048x1024_S2048x256_S1024x256_0_0_1_1_n_n.contr.Idx) :
    (dot_S2048x1024_S2048x256_S1024x256_0_0_1_1_n_n.lhsIdx j q 0).val = (q ⟨0, by decide⟩).val :=
  DotDims.lhsIdx_val_of_single (d := dot_S2048x1024_S2048x256_S1024x256_0_0_1_1_n_n) (cl := 0) rfl j q

private theorem lhs_dot_S2048x1024_S2048x256_S1024x256_0_0_1_1_n_n_1 (j : S1024x256.Idx)
    (q : dot_S2048x1024_S2048x256_S1024x256_0_0_1_1_n_n.contr.Idx) :
    (dot_S2048x1024_S2048x256_S1024x256_0_0_1_1_n_n.lhsIdx j q 1).val = (j 0).val := rfl

private theorem rhs_dot_S2048x1024_S2048x256_S1024x256_0_0_1_1_n_n_0 (j : S1024x256.Idx)
    (q : dot_S2048x1024_S2048x256_S1024x256_0_0_1_1_n_n.contr.Idx) :
    (dot_S2048x1024_S2048x256_S1024x256_0_0_1_1_n_n.rhsIdx j q 0).val = (q ⟨0, by decide⟩).val :=
  DotDims.rhsIdx_val_of_single (d := dot_S2048x1024_S2048x256_S1024x256_0_0_1_1_n_n) (cr := 0) rfl j q

private theorem rhs_dot_S2048x1024_S2048x256_S1024x256_0_0_1_1_n_n_1 (j : S1024x256.Idx)
    (q : dot_S2048x1024_S2048x256_S1024x256_0_0_1_1_n_n.contr.Idx) :
    (dot_S2048x1024_S2048x256_S1024x256_0_0_1_1_n_n.rhsIdx j q 1).val = (j 1).val := rfl

/-! The operand indices of the second product (a block of ones times the indicator): at output entry `j` and
    contraction position `q`, the left operand is read at (j₀, q) and the right one at (q, j₁). -/

private theorem lhs_dot_S8x2048_S2048x1024_S8x1024_1_0_0_1_n_n_0 (j : S8x1024.Idx)
    (q : dot_S8x2048_S2048x1024_S8x1024_1_0_0_1_n_n.contr.Idx) :
    (dot_S8x2048_S2048x1024_S8x1024_1_0_0_1_n_n.lhsIdx j q 0).val = (j 0).val := rfl

private theorem lhs_dot_S8x2048_S2048x1024_S8x1024_1_0_0_1_n_n_1 (j : S8x1024.Idx)
    (q : dot_S8x2048_S2048x1024_S8x1024_1_0_0_1_n_n.contr.Idx) :
    (dot_S8x2048_S2048x1024_S8x1024_1_0_0_1_n_n.lhsIdx j q 1).val = (q ⟨0, by decide⟩).val :=
  DotDims.lhsIdx_val_of_single (d := dot_S8x2048_S2048x1024_S8x1024_1_0_0_1_n_n) (cl := 1) rfl j q

private theorem rhs_dot_S8x2048_S2048x1024_S8x1024_1_0_0_1_n_n_0 (j : S8x1024.Idx)
    (q : dot_S8x2048_S2048x1024_S8x1024_1_0_0_1_n_n.contr.Idx) :
    (dot_S8x2048_S2048x1024_S8x1024_1_0_0_1_n_n.rhsIdx j q 0).val = (q ⟨0, by decide⟩).val :=
  DotDims.rhsIdx_val_of_single (d := dot_S8x2048_S2048x1024_S8x1024_1_0_0_1_n_n) (cr := 0) rfl j q

private theorem rhs_dot_S8x2048_S2048x1024_S8x1024_1_0_0_1_n_n_1 (j : S8x1024.Idx)
    (q : dot_S8x2048_S2048x1024_S8x1024_1_0_0_1_n_n.contr.Idx) :
    (dot_S8x2048_S2048x1024_S8x1024_1_0_0_1_n_n.rhsIdx j q 1).val = (j 1).val := rfl

/-- The 16-bit word of the second product's left operand is the number one. -/
private theorem one_bf16 : Ideal.ofBits .bf16 0x3F80#16 = 1 := by
  simp [Ideal.ofBits, Ideal.ieee, -EReal.coe_mul]
  norm_num

/-- The running sums after a step, at code `k` and column `d`: the value before plus the tile's rows with code `k`. -/
theorem stepSums_apply (x0 : Vec Ideal S2048 .i32) (x1 : Vec Ideal S2048x256 .f32) (acc : Vec Ideal S1024x256 .f32)
    (k : Fin 1024) (d : Fin 256) :
    k0_pay4 x0 x1 acc (ix2 k d) = acc (ix2 k d) + ∑ r : Fin 2048, hit (x0 (ix1 r)) k * x1 (ix2 r d) := by
  unfold k0_pay4
  rw [shapeCast_self, addf_apply]
  refine congrArg (acc (ix2 k d) + ·) ?_
  refine (Ideal.matmul_constant_zero_apply dot_S2048x1024_S2048x256_S1024x256_0_0_1_1_n_n none _ _ (ix2 k d)).trans ?_
  rw [← Equiv.sum_comp (contrEquiv1 dot_S2048x1024_S2048x256_S1024x256_0_0_1_1_n_n 2048 rfl rfl).symm]
  refine Finset.sum_congr rfl fun r _ => ?_
  have hq := contrEquiv1_symm_val dot_S2048x1024_S2048x256_S1024x256_0_0_1_1_n_n 2048 rfl rfl r
  have hl : dot_S2048x1024_S2048x256_S1024x256_0_0_1_1_n_n.lhsIdx (ix2 k d)
      ((contrEquiv1 dot_S2048x1024_S2048x256_S1024x256_0_0_1_1_n_n 2048 rfl rfl).symm r) = ix2 r k :=
    Shape.idx_ext₂ ((lhs_dot_S2048x1024_S2048x256_S1024x256_0_0_1_1_n_n_0 _ _).trans hq)
      (lhs_dot_S2048x1024_S2048x256_S1024x256_0_0_1_1_n_n_1 _ _)
  have hr : dot_S2048x1024_S2048x256_S1024x256_0_0_1_1_n_n.rhsIdx (ix2 k d)
      ((contrEquiv1 dot_S2048x1024_S2048x256_S1024x256_0_0_1_1_n_n 2048 rfl rfl).symm r) = ix2 r d :=
    Shape.idx_ext₂ ((rhs_dot_S2048x1024_S2048x256_S1024x256_0_0_1_1_n_n_0 _ _).trans hq)
      (rhs_dot_S2048x1024_S2048x256_S1024x256_0_0_1_1_n_n_1 _ _)
  rw [hl, hr, indicator_apply, truncf_apply]

/-- The running counts after a step, at row `a` of the eight and code `k`: the value before plus the tile's count. -/
theorem stepCounts_apply (x0 : Vec Ideal S2048 .i32) (acc : Vec Ideal S8x1024 .f32) (a : Fin 8) (k : Fin 1024) :
    k0_pay5 x0 acc (ix2 a k) = acc (ix2 a k) + ∑ r : Fin 2048, hit (x0 (ix1 r)) k := by
  unfold k0_pay5
  rw [shapeCast_self, addf_apply]
  refine congrArg (acc (ix2 a k) + ·) ?_
  refine (Ideal.matmul_constant_zero_apply dot_S8x2048_S2048x1024_S8x1024_1_0_0_1_n_n none _ _ (ix2 a k)).trans ?_
  rw [← Equiv.sum_comp (contrEquiv1 dot_S8x2048_S2048x1024_S8x1024_1_0_0_1_n_n 2048 rfl rfl).symm]
  refine Finset.sum_congr rfl fun r _ => ?_
  have hq := contrEquiv1_symm_val dot_S8x2048_S2048x1024_S8x1024_1_0_0_1_n_n 2048 rfl rfl r
  have hl : dot_S8x2048_S2048x1024_S8x1024_1_0_0_1_n_n.lhsIdx (ix2 a k)
      ((contrEquiv1 dot_S8x2048_S2048x1024_S8x1024_1_0_0_1_n_n 2048 rfl rfl).symm r) = ix2 a r :=
    Shape.idx_ext₂ (lhs_dot_S8x2048_S2048x1024_S8x1024_1_0_0_1_n_n_0 _ _)
      ((lhs_dot_S8x2048_S2048x1024_S8x1024_1_0_0_1_n_n_1 _ _).trans hq)
  have hr : dot_S8x2048_S2048x1024_S8x1024_1_0_0_1_n_n.rhsIdx (ix2 a k)
      ((contrEquiv1 dot_S8x2048_S2048x1024_S8x1024_1_0_0_1_n_n 2048 rfl rfl).symm r) = ix2 r k :=
    Shape.idx_ext₂ ((rhs_dot_S8x2048_S2048x1024_S8x1024_1_0_0_1_n_n_0 _ _).trans hq)
      (rhs_dot_S8x2048_S2048x1024_S8x1024_1_0_0_1_n_n_1 _ _)
  rw [hl, hr, broadcast_apply, indicator_apply]
  show Ideal.ofBits .bf16 0x3F80#16 * hit (x0 (ix1 r)) k = hit (x0 (ix1 r)) k
  rw [one_bf16, one_mul]

/-- The sums written out: the 1024 × 256 block viewed as 1 × 1024 × 256. -/
theorem outSums_apply (v : Vec Ideal S1024x256 .f32) (z : Fin 1) (k : Fin 1024) (d : Fin 256) :
    k0_pay6 v (ix3 z k d) = v (ix2 k d) := by
  unfold k0_pay6
  exact shapeCast_ab_1ab_apply v _ z k d

/-- The counts written out: the 8 × 1024 block viewed as 1 × 8 × 1024. -/
theorem outCounts_apply (v : Vec Ideal S8x1024 .f32) (z : Fin 1) (a : Fin 8) (k : Fin 1024) :
    k0_pay7 v (ix3 z a k) = v (ix2 a k) := by
  unfold k0_pay7
  exact shapeCast_ab_1ab_apply v _ z a k

end Cert.KernelIdeal.Codebook

end
-- ==== Proof.Tiles.lean ====
/-
  The running sums and counts in closed form, over the extended reals.

  Step `t` stages tile `t`: rows `2048 t … 2048 t + 2047` of the code words and of the entries (the two
  input windows' blocks, read where their index maps put them). With one step's contribution read at an entry,
  the recursion over the steps is the recursion of the running sums over tiles: after step `t`
  the scratch holds, at code `k` and column `d`, the sum over the tiles of `t`'s half up to `t`, and
  every one of the eight count rows holds that running count.
-/
import proofs.«401097_j33904471835537_2_alg».proof.Proof.Steps
import proofs.«401097_j33904471835537_2_alg».proof.Proof.TilePayload

noncomputable section

open Idealize.ShloMosaic Idealize.ShloMosaic.TcCoe Idealize.SL.Sem Idealize.ShloMosaic.ValueIdx
open Idealize.ShloMosaic.Pipeline (Dat)

namespace Cert.KernelIdeal.Codebook

open Cert.KernelIdeal Cert.KernelIdeal.Gen CodebookSums

variable (m : (ℓ : Loc nD τ sig) → Buf (Elt Ideal) ℓ)

/-- The code word of row `n`, as launched. -/
abbrev codeOf (c : Dev nD) : Fin 262144 → BitVec 32 := fun n => m ((c : Thread nD τ).loc main_arg0) (ix1 n)
/-- Entry `(n, d)`, as launched. -/
abbrev entryOf (c : Dev nD) : Fin 262144 → Fin 256 → EReal := fun n d => m ((c : Thread nD τ).loc main_arg1) (ix2 n d)

/-- A grid step as a tile number. -/
abbrev tileOf (t : Fin cfg0.N) : Fin 128 := ⟨t.val, lt_of_lt_of_eq t.isLt N_0⟩

/-- Where the input windows' index maps put step `t`'s blocks: block `t` along the rows. -/
theorem in_index : ∀ t : Fin cfg0.N, win0_0.index t (0 : Fin 1) = t.val
    ∧ win0_1.index t (0 : Fin 2) = t.val ∧ win0_1.index t (1 : Fin 2) = 0 :=
  (by decide +kernel : ∀ t : Fin grid0.N, _)

/-- Row `r` of step `t`'s staged code words is the code word of row `2048 t + r`. -/
theorem codes_apply (c : Dev nD) (t : Fin cfg0.N) (r : Fin 2048) :
    codes m c t (ix1 r) = codeOf m c (row (tileOf t) r) := by
  show V m c main_arg0 (((cfg0.win 0).blk t).view.emb (ix1 r)) = _
  rw [V_main_arg0]
  show m ((c : Thread nD τ).loc main_arg0) _ = m ((c : Thread nD τ).loc main_arg0) _
  congr 1
  funext a
  apply Fin.ext
  match a with
  | ⟨0, _⟩ => show win0_0.index t (0 : Fin 1) * 2048 + 1 * r.val = t.val * 2048 + r.val; rw [(in_index t).1]; omega

/-- Entry `(r, d)` of step `t`'s staged tile is entry `(2048 t + r, d)`. -/
theorem rows_apply (c : Dev nD) (t : Fin cfg0.N) (r : Fin 2048) (d : Fin 256) :
    rows m c t (ix2 r d) = entryOf m c (row (tileOf t) r) d := by
  show V m c main_arg1 (((cfg0.win 1).blk t).view.emb (ix2 r d)) = _
  rw [V_main_arg1]
  show m ((c : Thread nD τ).loc main_arg1) _ = m ((c : Thread nD τ).loc main_arg1) _
  congr 1
  funext a
  apply Fin.ext
  match a with
  | ⟨0, _⟩ => show win0_1.index t (0 : Fin 2) * 2048 + 1 * r.val = t.val * 2048 + r.val; rw [(in_index t).2.1]; omega
  | ⟨1, _⟩ => show win0_1.index t (1 : Fin 2) * 256 + 1 * d.val = d.val; rw [(in_index t).2.2]; omega

/-- One step's sums from zeros: the tile's sums. -/
theorem tile_sums (c : Dev nD) (t : Fin cfg0.N) (acc : Vec Ideal S1024x256 .f32) (k : Fin 1024) (d : Fin 256) :
    k0_pay4 (codes m c t) (rows m c t) acc (ix2 k d)
      = acc (ix2 k d) + tileTotal (codeOf m c) (entryOf m c) (tileOf t) k d := by
  rw [stepSums_apply]
  unfold tileTotal
  congr 1
  exact Finset.sum_congr rfl fun r _ => by rw [codes_apply, rows_apply]

/-- One step's counts. -/
theorem tile_counts (c : Dev nD) (t : Fin cfg0.N) (acc : Vec Ideal S8x1024 .f32) (a : Fin 8) (k : Fin 1024) :
    k0_pay5 (codes m c t) acc (ix2 a k) = acc (ix2 a k) + tileCount (codeOf m c) (tileOf t) k := by
  rw [stepCounts_apply]
  unfold tileCount
  congr 1
  exact Finset.sum_congr rfl fun r _ => by rw [codes_apply]

/-- After step `n` the sums scratch holds the running sums over the tiles of `n`'s half up to `n`. -/
theorem sumsAt_apply (c : Dev nD) (k : Fin 1024) (d : Fin 256) : ∀ (n : ℕ) (h : n < cfg0.N),
    sumsAt m c n h (ix2 k d) = runTotal (codeOf m c) (entryOf m c) (tileOf ⟨n, h⟩) k d
  | 0, h => by
    rw [sumsAt, tile_sums, zeroSums_apply, zero_add, runTotal_first _ _ _ (by rfl)]
  | n + 1, h => by
    rw [sumsAt]
    by_cases h0 : (n + 1) % 64 = 0
    · rw [if_pos h0, tile_sums, zeroSums_apply, zero_add, runTotal_first _ _ _ h0]
    · rw [if_neg h0, tile_sums, sumsAt_apply c k d n (Nat.lt_of_succ_lt h),
        runTotal_next _ _ (tileOf ⟨n, Nat.lt_of_succ_lt h⟩) (tileOf ⟨n + 1, h⟩) rfl h0]

/-- After step `n` every row of the counts scratch holds the running counts. -/
theorem countsAt_apply (c : Dev nD) (a : Fin 8) (k : Fin 1024) : ∀ (n : ℕ) (h : n < cfg0.N),
    countsAt m c n h (ix2 a k) = runCount (codeOf m c) (tileOf ⟨n, h⟩) k
  | 0, h => by
    rw [countsAt, tile_counts, zeroCounts_apply, zero_add, runCount_first _ _ (by rfl)]
  | n + 1, h => by
    rw [countsAt]
    by_cases h0 : (n + 1) % 64 = 0
    · rw [if_pos h0, tile_counts, zeroCounts_apply, zero_add, runCount_first _ _ h0]
    · rw [if_neg h0, tile_counts, countsAt_apply c a k n (Nat.lt_of_succ_lt h),
        runCount_next _ (tileOf ⟨n, Nat.lt_of_succ_lt h⟩) (tileOf ⟨n + 1, h⟩) rfl h0]

end Cert.KernelIdeal.Codebook

end
-- ==== Proof.Arrays.lean ====
/-
  What the two output arrays hold when the grid is done, over the extended reals.

  The sums' array is 2 × 1024 × 256, one 1024 × 256 block per half; the block of half `h` is written back once,
  after step `64 h + 63`, with that step's running sums: the sum over all 64 tiles of the half. The counts'
  array is 2 × 8 × 1024 and its block of half `h` holds, in each of its 8 rows, the half's counts.
  Every entry of either array lies in one of the two blocks written back, so the arrays end holding exactly these.
-/
import proofs.«401097_j33904471835537_2_alg».proof.Proof.Tiles
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Codebook

open Cert.KernelIdeal Cert.KernelIdeal.Gen CodebookSums

variable (m : (ℓ : Loc nD τ sig) → Buf (Elt Ideal) ℓ)

/-- The last tile of half `h`. -/
abbrev lastTile (h : ℕ) (hh : h < 2) : Fin 128 := ⟨64 * h + 63, by omega⟩

/-- The halves' sums: entry `(h, k, d)` is the sum over the rows of half `h` with code `k` of column `d`. -/
def halfSums (c : Dev nD) : S2x1024x256.Idx → EReal := fun j =>
  runTotal (codeOf m c) (entryOf m c) (lastTile (j 0).val (j 0).isLt) (j 1) (j 2)

/-- The halves' counts, repeated over the eight rows: entry `(h, a, k)` is the number of rows of half `h` with code `k`. -/
def halfCounts (c : Dev nD) : S2x8x1024.Idx → EReal := fun j =>
  runCount (codeOf m c) (lastTile (j 0).val (j 0).isLt) (j 2)

/-- Where the output windows' index maps put a step's block: the block of the step's half. -/
theorem out_index : ∀ t : Fin cfg0.N, win0_2.index t (0 : Fin 3) = t.val / 64
    ∧ win0_2.index t (1 : Fin 3) = 0 ∧ win0_2.index t (2 : Fin 3) = 0
    ∧ win0_3.index t (0 : Fin 3) = t.val / 64
    ∧ win0_3.index t (1 : Fin 3) = 0 ∧ win0_3.index t (2 : Fin 3) = 0 :=
  (by decide +kernel : ∀ t : Fin grid0.N, _)

/-- The sums a half's last step writes out are that half's block of `halfSums`. -/
theorem sums_block (c : Dev nD) (t : Fin cfg0.N) (h1 : t.val % 64 = 63) (y : S1x1024x256.Idx) (i : S2x1024x256.Idx)
    (e0 : (i 0).val = t.val / 64) (e1 : (i 1).val = (y 1).val) (e2 : (i 2).val = (y 2).val) :
    k0_pay6 (sumsAt m c t.val t.isLt) y = halfSums m c i := by
  obtain ⟨z, k, d, rfl⟩ : ∃ (z : Fin 1) (k : Fin 1024) (d : Fin 256), y = ix3 z k d := ⟨y 0, y 1, y 2, eq_ix3 y⟩
  rw [outSums_apply, sumsAt_apply]
  unfold halfSums
  have hN : t.val < 128 := lt_of_lt_of_eq t.isLt N_0
  have ht : tileOf ⟨t.val, t.isLt⟩ = lastTile (i 0).val (i 0).isLt := Fin.ext (by show t.val = 64 * (i 0).val + 63; omega)
  have hk : k = i 1 := Fin.ext e1.symm
  have hd : d = i 2 := Fin.ext e2.symm
  rw [ht, hk, hd]

/-- The counts a half's last step writes out are that half's block of `halfCounts`. -/
theorem counts_block (c : Dev nD) (t : Fin cfg0.N) (h1 : t.val % 64 = 63) (y : S1x8x1024.Idx) (i : S2x8x1024.Idx)
    (e0 : (i 0).val = t.val / 64) (e2 : (i 2).val = (y 2).val) :
    k0_pay7 (countsAt m c t.val t.isLt) y = halfCounts m c i := by
  obtain ⟨z, a, k, rfl⟩ : ∃ (z : Fin 1) (a : Fin 8) (k : Fin 1024), y = ix3 z a k := ⟨y 0, y 1, y 2, eq_ix3 y⟩
  rw [outCounts_apply, countsAt_apply]
  unfold halfCounts
  have hN : t.val < 128 := lt_of_lt_of_eq t.isLt N_0
  have ht : tileOf ⟨t.val, t.isLt⟩ = lastTile (i 0).val (i 0).isLt := Fin.ext (by show t.val = 64 * (i 0).val + 63; omega)
  have hk : k = i 2 := Fin.ext e2.symm
  rw [ht, hk]

/-- What a write-back of the sums' window writes is its block of `halfSums`. -/
theorem flushed_sums (c : Dev nD) (t : Fin cfg0.N) (hf : (cfg0.win 2).flush t = true) :
    (dats m 0 c).flushed 2 t = ((cfg0.win 2).blk t).view.read (Elt Ideal) (halfSums m c) := by
  have h1 : t.val % 64 = 63 := (flush0_2 t).mp hf
  show (cfg0.win 2).cut (grid0.coords t) ((dats m 0 c).after 2 t) = _
  rw [after0_2, (outputs_last m c t h1).1]
  funext y
  refine sums_block m c t h1 y _ ?_ ?_ ?_
  · show win0_2.index t (0 : Fin 3) * 1 + 1 * (y 0).val = t.val / 64
    have : (y 0).val < 1 := (y 0).isLt
    rw [(out_index t).1]; omega
  · show win0_2.index t (1 : Fin 3) * 1024 + 1 * (y 1).val = (y 1).val
    rw [(out_index t).2.1]; omega
  · show win0_2.index t (2 : Fin 3) * 256 + 1 * (y 2).val = (y 2).val
    rw [(out_index t).2.2.1]; omega

/-- What a write-back of the counts' window writes is its block of `halfCounts`. -/
theorem flushed_counts (c : Dev nD) (t : Fin cfg0.N) (hf : (cfg0.win 3).flush t = true) :
    (dats m 0 c).flushed 3 t = ((cfg0.win 3).blk t).view.read (Elt Ideal) (halfCounts m c) := by
  have h1 : t.val % 64 = 63 := (flush0_3 t).mp hf
  show (cfg0.win 3).cut (grid0.coords t) ((dats m 0 c).after 3 t) = _
  rw [after0_3, (outputs_last m c t h1).2]
  funext y
  refine counts_block m c t h1 y _ ?_ ?_
  · show win0_3.index t (0 : Fin 3) * 1 + 1 * (y 0).val = t.val / 64
    have : (y 0).val < 1 := (y 0).isLt
    rw [(out_index t).2.2.2.1]; omega
  · show win0_3.index t (2 : Fin 3) * 1024 + 1 * (y 2).val = (y 2).val
    rw [(out_index t).2.2.2.2.2]; omega

/-- The step that writes back half `h`'s blocks. -/
abbrev lastStep (h : ℕ) (hh : h < 2) : Fin cfg0.N := ⟨64 * h + 63, by rw [show cfg0.N = 128 from N_0]; omega⟩

/-- The sums' array ends holding the halves' sums. -/
theorem final_sums (c : Dev nD) : (dats m 0 c).arrAt 2 cfg0.N = halfSums m c :=
  (dats m 0 c).arrAt_eq_of_cover 2 (halfSums m c) (flushed_sums m c) fun i => by
    have h0 : (i 0).val < 2 := (i 0).isLt
    have hl : (lastStep (i 0).val h0).val = 64 * (i 0).val + 63 := rfl
    refine ⟨lastStep (i 0).val h0, (flush0_2 _).mpr (by rw [hl]; omega), ?_⟩
    show i ∈ ((View.whole main_v0_0).slice (win0_2.rect (lastStep (i 0).val h0))).set
    rw [View.set_slice_whole, Rect.mem_set_unit]
    intro a
    have h1 : (i 1).val < 1024 := (i 1).isLt
    have h2 : (i 2).val < 256 := (i 2).isLt
    obtain ⟨q0, q1, q2, -⟩ := out_index (lastStep (i 0).val h0)
    match a with
    | ⟨0, _⟩ =>
      show win0_2.index (lastStep (i 0).val h0) (0 : Fin 3) * 1 ≤ (i 0).val ∧ (i 0).val < win0_2.index (lastStep (i 0).val h0) (0 : Fin 3) * 1 + 1
      rw [q0, hl]; omega
    | ⟨1, _⟩ =>
      show win0_2.index (lastStep (i 0).val h0) (1 : Fin 3) * 1024 ≤ (i 1).val ∧ (i 1).val < win0_2.index (lastStep (i 0).val h0) (1 : Fin 3) * 1024 + 1024
      rw [q1]; omega
    | ⟨2, _⟩ =>
      show win0_2.index (lastStep (i 0).val h0) (2 : Fin 3) * 256 ≤ (i 2).val ∧ (i 2).val < win0_2.index (lastStep (i 0).val h0) (2 : Fin 3) * 256 + 256
      rw [q2]; omega

/-- The counts' array ends holding the halves' counts. -/
theorem final_counts (c : Dev nD) : (dats m 0 c).arrAt 3 cfg0.N = halfCounts m c :=
  (dats m 0 c).arrAt_eq_of_cover 3 (halfCounts m c) (flushed_counts m c) fun i => by
    have h0 : (i 0).val < 2 := (i 0).isLt
    have hl : (lastStep (i 0).val h0).val = 64 * (i 0).val + 63 := rfl
    refine ⟨lastStep (i 0).val h0, (flush0_3 _).mpr (by rw [hl]; omega), ?_⟩
    show i ∈ ((View.whole main_v0_1).slice (win0_3.rect (lastStep (i 0).val h0))).set
    rw [View.set_slice_whole, Rect.mem_set_unit]
    intro a
    have h1 : (i 1).val < 8 := (i 1).isLt
    have h2 : (i 2).val < 1024 := (i 2).isLt
    obtain ⟨-, -, -, q0, q1, q2⟩ := out_index (lastStep (i 0).val h0)
    match a with
    | ⟨0, _⟩ =>
      show win0_3.index (lastStep (i 0).val h0) (0 : Fin 3) * 1 ≤ (i 0).val ∧ (i 0).val < win0_3.index (lastStep (i 0).val h0) (0 : Fin 3) * 1 + 1
      rw [q0, hl]; omega
    | ⟨1, _⟩ =>
      show win0_3.index (lastStep (i 0).val h0) (1 : Fin 3) * 8 ≤ (i 1).val ∧ (i 1).val < win0_3.index (lastStep (i 0).val h0) (1 : Fin 3) * 8 + 8
      rw [q1]; omega
    | ⟨2, _⟩ =>
      show win0_3.index (lastStep (i 0).val h0) (2 : Fin 3) * 1024 ≤ (i 2).val ∧ (i 2).val < win0_3.index (lastStep (i 0).val h0) (2 : Fin 3) * 1024 + 1024
      rw [q2]; omega

end Cert.KernelIdeal.Codebook

end
-- ==== Proof.Combine.lean ====
/-
  The host's combination of the two halves, over the extended reals.

  After the grid the host adds the two halves' blocks (a sum over the leading axis of extent 2, from zero) and,
  for the counts, keeps row 0 of the eight identical rows. The halves' running sums over their last tiles
  add up to the sums over all rows, so what comes out is `total` and `count` of the launched arrays.
-/
import proofs.«401097_j33904471835537_2_alg».proof.Proof.Arrays
import Idealize.ShloMosaic.PureOps.Ideal.Laws
import Idealize.ShloMosaic.Lib.ValueLayout

noncomputable section

open Idealize.ShloMosaic Idealize.ShloMosaic.TcCoe Idealize.SL.Sem Idealize.ShloMosaic.ValueIdx

namespace Cert.KernelIdeal.Codebook

open Cert.KernelIdeal Cert.KernelIdeal.Gen CodebookSums

/-- The host's sum of the two halves of a 2 × 1024 × 256 array, from zero, at an entry. -/
theorem sumHalves_apply (part : S2x1024x256.Idx → EReal) (k : Fin 1024) (d : Fin 256) :
    Host.reduceAdd (F := Ideal) (φ := .f32) part (constant S_ .f32 0x00000000#32) reducesTo_S2x1024x256_S1024x256_d0 h_S_ (ix2 k d)
      = part (ix3 0 k d) + part (ix3 1 k d) := by
  have hr : S2x1024x256.Reduces [0] S1024x256 := by decide
  show Ideal.hostReduceAdd reducesTo_S2x1024x256_S1024x256_d0 part (Ideal.ofBits .f32 0x00000000#32) (ix2 k d) = _
  rw [Ideal.hostReduceAdd_single _ hr, Ideal.ofBits_zero_f32, zero_add]
  show ∑ h : Fin 2, part (hr.lift (ix2 k d) h) = _
  rw [Fin.sum_univ_two]
  have l0 : hr.lift (ix2 k d) (0 : Fin 2) = ix3 0 k d := funext fun a => by
    match a with
    | ⟨0, _⟩ => rfl
    | ⟨1, _⟩ => rfl
    | ⟨2, _⟩ => rfl
  have l1 : hr.lift (ix2 k d) (1 : Fin 2) = ix3 1 k d := funext fun a => by
    match a with
    | ⟨0, _⟩ => rfl
    | ⟨1, _⟩ => rfl
    | ⟨2, _⟩ => rfl
  rw [l0, l1]

/-- The same for a 2 × 8 × 1024 array. -/
theorem sumHalves8_apply (part : S2x8x1024.Idx → EReal) (a : Fin 8) (k : Fin 1024) :
    Host.reduceAdd (F := Ideal) (φ := .f32) part (constant S_ .f32 0x00000000#32) reducesTo_S2x8x1024_S8x1024_d0 h_S_ (ix2 a k)
      = part (ix3 0 a k) + part (ix3 1 a k) := by
  have hr : S2x8x1024.Reduces [0] S8x1024 := by decide
  show Ideal.hostReduceAdd reducesTo_S2x8x1024_S8x1024_d0 part (Ideal.ofBits .f32 0x00000000#32) (ix2 a k) = _
  rw [Ideal.hostReduceAdd_single _ hr, Ideal.ofBits_zero_f32, zero_add]
  show ∑ h : Fin 2, part (hr.lift (ix2 a k) h) = _
  rw [Fin.sum_univ_two]
  have l0 : hr.lift (ix2 a k) (0 : Fin 2) = ix3 0 a k := funext fun b => by
    match b with
    | ⟨0, _⟩ => rfl
    | ⟨1, _⟩ => rfl
    | ⟨2, _⟩ => rfl
  have l1 : hr.lift (ix2 a k) (1 : Fin 2) = ix3 1 a k := funext fun b => by
    match b with
    | ⟨0, _⟩ => rfl
    | ⟨1, _⟩ => rfl
    | ⟨2, _⟩ => rfl
  rw [l0, l1]

variable (m : (ℓ : Loc nD τ sig) → Buf (Elt Ideal) ℓ)

/-- The per-code column sums of the launched arrays, as a 1024 × 256 table. -/
def totals (c : Dev nD) : S1024x256.Idx → EReal := fun j => total (codeOf m c) (entryOf m c) (j 0) (j 1)

/-- The per-code counts of the launched code words, as a table of 1024. -/
def counts (c : Dev nD) : S1024.Idx → EReal := fun j => count (codeOf m c) (j 0)

/-- The two halves' sums, added by the host, are the sums over all rows. -/
theorem sumHalves_halfSums (c : Dev nD) :
    Host.reduceAdd (F := Ideal) (φ := .f32) (halfSums m c) (constant S_ .f32 0x00000000#32) reducesTo_S2x1024x256_S1024x256_d0 h_S_
      = totals m c := by
  funext j
  obtain ⟨k, d, rfl⟩ : ∃ (k : Fin 1024) (d : Fin 256), j = ix2 k d := ⟨j 0, j 1, eq_ix2 j⟩
  rw [sumHalves_apply]
  exact (total_eq_halves (codeOf m c) (entryOf m c) k d).symm

/-- Row 0 of the two halves' counts, added by the host, is the count over all rows. -/
theorem sumHalves_halfCounts (c : Dev nD) :
    shapeCast S1024 (extractStridedSlice S1x1024 ![0, 0]
        (Host.reduceAdd (F := Ideal) (φ := .f32) (halfCounts m c) (constant S_ .f32 0x00000000#32) reducesTo_S2x8x1024_S8x1024_d0 h_S_)
        slices_S8x1024_S1x1024_0_0) shapeCasts_S1x1024_S1024
      = counts m c := by
  funext j
  obtain ⟨k, rfl⟩ : ∃ k : Fin 1024, j = ix1 k := ⟨j 0, eq_ix1 j⟩
  rw [shapeCast_1a_a_apply,
    extractStridedSlice_apply _ _ _ (ix2 (0 : Fin 1) k) (ix2 (0 : Fin 8) k) (fun a => by
      match a with
      | ⟨0, _⟩ => rfl
      | ⟨1, _⟩ => show k.val = 0 + k.val; omega),
    sumHalves8_apply]
  exact (count_eq_halves (codeOf m c) k).symm

end Cert.KernelIdeal.Codebook

end
-- ==== Proof.KernelRun.lean ====
/-
  The kernel's whole run, read: what its three results hold, over the extended reals.

  After the grid the host combines the halves and applies the moving-average update and the normalisation.
  Written as functions of the launched cluster sizes and averages and of the per-code counts and sums:
  `newSizes` (0.99 · size + 0.01 · count), `newAverages` (0.99 · average + 0.01 · sum) and `normalised`
  (the new averages divided, row by row, by the smoothed new sizes). The run ends with the results at these
  of `counts` and `totals` of the launched arrays, and the arguments unchanged.
-/
import proofs.«401097_j33904471835537_2_alg».proof.Proof.Combine
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Codebook

open Cert.KernelIdeal Cert.KernelIdeal.Gen CodebookSums

/-- The updated cluster sizes: 0.99 of the old ones plus 0.01 of the counts. -/
def newSizes (cs cnt : FVec Ideal S1024 .f32) : FVec Ideal S1024 .f32 :=
  addf (mulf cs (broadcastInDim S1024 ![] bcast_S_S1024 (constant S_ .f32 0x3F7D70A4#32)))
    (mulf (broadcastInDim S1024 ![] bcast_S_S1024 (constant S_ .f32 0x3C23D70A#32)) cnt)

/-- The updated averages: 0.99 of the old ones plus 0.01 of the sums. -/
def newAverages (ea es : FVec Ideal S1024x256 .f32) : FVec Ideal S1024x256 .f32 :=
  addf (mulf ea (broadcastInDim S1024x256 ![] bcast_S_S1024x256 (constant S_ .f32 0x3F7D70A4#32)))
    (mulf (broadcastInDim S1024x256 ![] bcast_S_S1024x256 (constant S_ .f32 0x3C23D70A#32)) es)

/-- The updated averages over the smoothed sizes `(size + ε) / (n + 1024 ε) · n`, `n` the sum of the sizes. -/
def normalised (ncs : FVec Ideal S1024 .f32) (nea : FVec Ideal S1024x256 .f32) : FVec Ideal S1024x256 .f32 :=
  Host.divf nea (broadcastInDim S1024x256 ![0, 1] bcast_S1024x1_S1024x256_0_1 (broadcastInDim S1024x1 ![0] bcast_S1024_S1024x1_0
    (mulf (Host.divf (addf ncs (broadcastInDim S1024 ![] bcast_S_S1024 (constant S_ .f32 0x3727C5AC#32)))
        (broadcastInDim S1024 ![] bcast_S_S1024 (addf (Host.reduceAdd ncs (constant S_ .f32 0x00000000#32) reducesTo_S1024_S_d0 h_S_) (constant S_ .f32 0x3C27C5AC#32))))
      (broadcastInDim S1024 ![] bcast_S_S1024 (Host.reduceAdd ncs (constant S_ .f32 0x00000000#32) reducesTo_S1024_S_d0 h_S_)))))

variable (m : (ℓ : Loc nD τ sig) → Buf (Elt Ideal) ℓ) (ρ : Dev nD → PrngReg)

/-- What the host operations after the grid find in the sums' array, -/
theorem arr_sums (c : Dev nD) :
    Pipeline.withArrays (cfgs 0).spec c (V0 m c) (fun w => (dats m 0 c).arrAt w (cfgs 0).N) (Proc.devRef .tc main_v0_0) = halfSums m c :=
  (Pipeline.withArrays_arr spec0 launch0.win.arr_inj c _ _ 2).trans (final_sums m c)

/-- in the counts' array, -/
theorem arr_counts (c : Dev nD) :
    Pipeline.withArrays (cfgs 0).spec c (V0 m c) (fun w => (dats m 0 c).arrAt w (cfgs 0).N) (Proc.devRef .tc main_v0_1) = halfCounts m c :=
  (Pipeline.withArrays_arr spec0 launch0.win.arr_inj c _ _ 3).trans (final_counts m c)

/-- and in the two arguments the grid does not touch. -/
theorem arr_arg2 (c : Dev nD) :
    Pipeline.withArrays (cfgs 0).spec c (V0 m c) (fun w => (dats m 0 c).arrAt w (cfgs 0).N) (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem arr_arg3 (c : Dev nD) :
    Pipeline.withArrays (cfgs 0).spec c (V0 m c) (fun w => (dats m 0 c).arrAt w (cfgs 0).N) (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

/-- The first result: the updated sizes of the launched sizes and the counts. -/
theorem tail_sizes (c : Dev nD) : Pipeline.afterTail₀ cfgs (dats m) 0 (V0 m) [hostOps1] c main_v9
    = newSizes (m ((c : Thread nD τ).loc main_arg2)) (counts m c) := by
  unfold Pipeline.afterTail₀
  show StableHlo.after hostOps1 _ (Proc.devRef .tc main_v9) = _
  after_results
  rw [arr_arg2, arr_counts, ← sumHalves_halfCounts m c]
  rfl

/-- The second result: the updated averages of the launched averages and the sums. -/
theorem tail_averages (c : Dev nD) : Pipeline.afterTail₀ cfgs (dats m) 0 (V0 m) [hostOps1] c main_v14
    = newAverages (m ((c : Thread nD τ).loc main_arg3)) (totals m c) := by
  unfold Pipeline.afterTail₀
  show StableHlo.after hostOps1 _ (Proc.devRef .tc main_v14) = _
  after_results
  rw [arr_arg3, arr_sums, sumHalves_halfSums m c]
  rfl

set_option maxHeartbeats 2000000 in
/-- The third result: the updated averages normalised by the updated sizes. -/
theorem tail_normalised (c : Dev nD) : Pipeline.afterTail₀ cfgs (dats m) 0 (V0 m) [hostOps1] c main_v25
    = normalised (newSizes (m ((c : Thread nD τ).loc main_arg2)) (counts m c))
        (newAverages (m ((c : Thread nD τ).loc main_arg3)) (totals m c)) := by
  unfold Pipeline.afterTail₀
  show StableHlo.after hostOps1 _ (Proc.devRef .tc main_v25) = _
  after_results_simp
  rw [arr_arg2, arr_arg3, arr_counts, arr_sums, sumHalves_halfSums m c, ← sumHalves_halfCounts m c]
  rfl

/-- Every weakly fair execution of the kernel's program terminates with its three results at these terms and its
    four arguments unchanged. -/
theorem run : θ_run defs (onTc (τ := τ) (main (F := Ideal))) ⟨m, fun _ => 0, ρ⟩ fun r => ∀ c : Dev nD,
      r.2.mem ((c.tc : Thread nD τ).loc main_v9) = newSizes (m ((c : Thread nD τ).loc main_arg2)) (counts m c)
      ∧ r.2.mem ((c.tc : Thread nD τ).loc main_v14) = newAverages (m ((c : Thread nD τ).loc main_arg3)) (totals m c)
      ∧ r.2.mem ((c.tc : Thread nD τ).loc main_v25)
          = normalised (newSizes (m ((c : Thread nD τ).loc main_arg2)) (counts m c))
              (newAverages (m ((c : Thread nD τ).loc main_arg3)) (totals m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (tail_sizes m c),
      ((h c).2 main_v14 (Pipeline.mem_restRefs_of main_v14 (by decide) (by decide))).trans (tail_averages m c),
      ((h c).2 main_v25 (Pipeline.mem_restRefs_of main_v25 (by decide) (by decide))).trans (tail_normalised m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Codebook

end
-- ==== Proof.ScatterRead.lean ====
/-
  The reference's two scatter-adds read at one entry, over the extended reals.

  The reference adds, into a table of zeros, a one for every row (the counts) and every row of the
  entries (the sums), each at the code the row's index word names, read as a signed integer; a row
  whose word is not one of the 1024 codes lands outside the table and is dropped. For a code `k`
  below 1024 "the signed reading of the word is `k`" and "the word is `k`'s word" are the same, so the
  entry for `k` is the zero it started from plus the sum, over ALL rows, of the indicator `hit` times
  what the row adds: `count` and `total`.
-/
import proofs.«401097_j33904471835537_2_alg».proof.ReferenceIdeal
import proofs.«401097_j33904471835537_2_alg».proof.Proof.Gen.ReferenceIdeal
import proofs.«401097_j33904471835537_2_alg».proof.Proof.CodebookSums
import Idealize.ShloMosaic.Lib.ValueIdx
import Idealize.ShloMosaic.PureOps.Ideal.Laws

noncomputable section

namespace Cert.ReferenceIdeal.Codebook

open Idealize.ShloMosaic Idealize.ShloMosaic.TcCoe Idealize.ShloMosaic.ValueIdx
open Cert.ReferenceIdeal Cert.ReferenceIdeal.Gen CodebookSums

/-- An update lands on operand index `i` exactly when start plus window coordinate is `i`'s coordinate on every axis. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hc
      have h1 := congrArg Fin.val (congrFun (Option.some.inj h) a)
      have h2 := hc a
      simp only at h1
      omega
    · cases h
  · intro h
    have hc : ∀ a, 0 ≤ d.start j idx a + (d.window j a : Int) ∧ d.start j idx a + (d.window j a : Int) < s.size a := by
      intro a
      have := (i a).isLt
      rw [h a]
      omega
    rw [dif_pos hc]
    refine congrArg some (funext fun a => Fin.ext ?_)
    show (d.start j idx a + (d.window j a : Int)).toNat = (i a).val
    rw [h a]
    exact Int.toNat_natCast _

/-- The index array with a unit axis appended reads the index array. -/
private theorem bcastIdx_apply (idx : IVec S262144 32) (q : S262144x1.Idx) :
    broadcastInDim S262144x1 ![0] bcast_S262144_S262144x1_0 idx q = idx (ix1 (q 0)) := by
  unfold broadcastInDim
  refine congrArg idx (funext fun a => ?_)
  obtain rfl : a = 0 := Subsingleton.elim _ _
  rfl

/-- First record: the start on the one operand axis is update `j`'s index word, read signed. -/
private theorem start1 (idx : IVec S262144 32) (j : S262144.Idx) (a : Fin S1024.rank) :
    scatter_S1024_S262144x1_S262144_n_0_0_1.start j
      (broadcastInDim S262144x1 ![0] bcast_S262144_S262144x1_0 idx) a = (idx j).toInt := by
  obtain rfl : a = 0 := Subsingleton.elim _ _
  unfold ScatterDims.start
  rw [dif_pos (show (0 : Fin S1024.rank) ∈ scatter_S1024_S262144x1_S262144_n_0_0_1.scatterDimsToOperandDims from List.mem_singleton.mpr rfl)]
  rw [bcastIdx_apply]
  refine congrArg (fun q => (idx q).toInt) ?_
  refine Eq.trans (congrArg ix1 ?_) (eq_ix1 j).symm
  exact Fin.ext rfl

/-- First record: the one operand axis is inserted, so the window coordinate is zero. -/
private theorem window1 (j : S262144.Idx) (a : Fin S1024.rank) :
    scatter_S1024_S262144x1_S262144_n_0_0_1.window j a = 0 := by
  obtain rfl : a = 0 := Subsingleton.elim _ _
  unfold ScatterDims.window
  rw [dif_neg (by decide)]

/-- For a code below 1024 "the word read signed is the code" and "the word is the code's word" are the same. -/
private theorem toInt_eq_code (w : BitVec 32) (k : Nat) (hk : k < 1024) :
    w.toInt = (k : Int) ↔ w = BitVec.ofNat 32 k := by
  have hw := w.isLt
  rw [BitVec.toInt_eq_toNat_cond]
  constructor
  · intro h
    apply BitVec.eq_of_toNat_eq
    rw [BitVec.toNat_ofNat]
    split at h <;> omega
  · rintro rfl
    rw [BitVec.toNat_ofNat]
    split <;> omega

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- First record: update `j` lands on code `i` exactly when its index word, read signed, is `i`. -/
private theorem lands1 (idx : IVec S262144 32) (j : S262144.Idx) (i : S1024.Idx) :
    scatter_S1024_S262144x1_S262144_n_0_0_1.resultIdx? j
      (broadcastInDim S262144x1 ![0] bcast_S262144_S262144x1_0 idx) = some i ↔ (idx j).toInt = ((i 0).val : Int) := by
  rw [resultIdx?_eq_some_iff]
  constructor
  · intro h
    have := h 0
    rw [start1, window1] at this
    simpa using this
  · intro h a
    obtain rfl : a = 0 := Subsingleton.elim _ _
    rw [start1, window1]
    simpa using h

/-- Second record: the start on the code axis is the row's index word read signed … -/
private theorem start2_code (idx : IVec S262144 32) (n : Fin 262144) (c : Fin 256) :
    scatter_S1024x256_S262144x1_S262144x256_1_0_0_1.start (ix2 n c)
      (broadcastInDim S262144x1 ![0] bcast_S262144_S262144x1_0 idx) 0 = (idx (ix1 n)).toInt := by
  unfold ScatterDims.start
  rw [dif_pos (show (0 : Fin S1024x256.rank) ∈ scatter_S1024x256_S262144x1_S262144x256_1_0_0_1.scatterDimsToOperandDims from
    List.mem_singleton.mpr rfl)]
  rw [bcastIdx_apply]
  refine congrArg (fun q => (idx (ix1 q)).toInt) ?_
  exact Fin.ext rfl

/-- … and the column axis is not scattered: its start is zero. -/
private theorem start2_col (idx : IVec S262144 32) (j : S262144x256.Idx) :
    scatter_S1024x256_S262144x1_S262144x256_1_0_0_1.start j
      (broadcastInDim S262144x1 ![0] bcast_S262144_S262144x1_0 idx) 1 = 0 := by
  unfold ScatterDims.start
  rw [dif_neg (by decide)]

/-- Second record: the code axis is inserted, its window coordinate zero … -/
private theorem window2_code (j : S262144x256.Idx) :
    scatter_S1024x256_S262144x1_S262144x256_1_0_0_1.window j 0 = 0 := by
  unfold ScatterDims.window
  rw [dif_neg (by decide)]

/-- … and the column axis carries the update's column. -/
private theorem window2_col (n : Fin 262144) (c : Fin 256) :
    scatter_S1024x256_S262144x1_S262144x256_1_0_0_1.window (ix2 n c) 1 = c.val := by
  unfold ScatterDims.window
  rw [dif_pos (by decide)]
  rfl

/-- Second record: update `(n, c)` lands on `(k, d)` exactly when row `n`'s index word, read signed, is `k` and `c = d`. -/
private theorem lands2 (idx : IVec S262144 32) (n : Fin 262144) (c : Fin 256) (k : Fin 1024) (d : Fin 256) :
    scatter_S1024x256_S262144x1_S262144x256_1_0_0_1.resultIdx? (ix2 n c)
      (broadcastInDim S262144x1 ![0] bcast_S262144_S262144x1_0 idx) = some (ix2 k d)
      ↔ (idx (ix1 n)).toInt = (k.val : Int) ∧ c = d := by
  rw [resultIdx?_eq_some_iff]
  constructor
  · intro h
    have h0 := h 0
    have h1 := h 1
    rw [start2_code, window2_code] at h0
    rw [start2_col, window2_col] at h1
    refine ⟨by simpa using h0, Fin.ext ?_⟩
    simpa using h1
  · rintro ⟨h0, rfl⟩ a
    have ha : a = 0 ∨ a = 1 := by
      rcases a with ⟨v, hv⟩
      have hv' : v < 2 := hv
      rcases (show v = 0 ∨ v = 1 by omega) with rfl | rfl
      · exact Or.inl rfl
      · exact Or.inr rfl
    rcases ha with rfl | rfl
    · rw [start2_code, window2_code]; simpa using h0
    · rw [start2_col, window2_col]; simp

/-- The reference's per-code counts: ones scattered into zeros at the rows' codes. -/
theorem countsRef_apply (idx : IVec S262144 32) (k : Fin 1024) :
    Host.scatterAdd (F := Ideal) scatter_S1024_S262144x1_S262144_n_0_0_1
        (broadcastInDim S1024 ![] bcast_S_S1024 (constant S_ .f32 0x00000000#32))
        (broadcastInDim S262144x1 ![0] bcast_S262144_S262144x1_0 idx)
        (broadcastInDim S262144 ![] bcast_S_S262144 (constant S_ .f32 0x3F800000#32)) (ix1 k)
      = count (fun n => idx (ix1 n)) k := by
  unfold Host.scatterAdd
  rw [Ideal.hostScatterAdd_def]
  unfold Ideal.hostScatterAdd CodebookSums.count
  rw [Finset.sum_filter, sum_idx1]
  have hz : broadcastInDim S1024 ![] bcast_S_S1024 (constant (F := Ideal) S_ .f32 0x00000000#32) (ix1 k) = 0 :=
    Ideal.ofBits_zero_f32
  rw [hz, zero_add]
  refine Finset.sum_congr rfl fun a _ => ?_
  have h1 : broadcastInDim S262144 ![] bcast_S_S262144 (constant (F := Ideal) S_ .f32 0x3F800000#32) (ix1 a) = 1 :=
    IdealRules.sign_bit.ideal_onePat .f32
  rw [h1]
  unfold hit
  exact if_congr ((lands1 idx (ix1 a) (ix1 k)).trans (toInt_eq_code _ k.val k.isLt)) rfl rfl

/-- The reference's per-code column sums: the rows of the entries scattered into zeros at the rows' codes. -/
theorem totalsRef_apply (idx : IVec S262144 32) (enc : FVec Ideal S262144x256 .f32) (k : Fin 1024) (d : Fin 256) :
    Host.scatterAdd (F := Ideal) scatter_S1024x256_S262144x1_S262144x256_1_0_0_1
        (broadcastInDim S1024x256 ![] bcast_S_S1024x256 (constant S_ .f32 0x00000000#32))
        (broadcastInDim S262144x1 ![0] bcast_S262144_S262144x1_0 idx)
        enc (ix2 k d)
      = total (fun n => idx (ix1 n)) (fun n d => enc (ix2 n d)) k d := by
  unfold Host.scatterAdd
  rw [Ideal.hostScatterAdd_def]
  unfold Ideal.hostScatterAdd CodebookSums.total
  rw [Finset.sum_filter, sum_idx2]
  have hz : broadcastInDim S1024x256 ![] bcast_S_S1024x256 (constant (F := Ideal) S_ .f32 0x00000000#32) (ix2 k d) = 0 :=
    Ideal.ofBits_zero_f32
  rw [hz, zero_add]
  refine Finset.sum_congr rfl fun n _ => ?_
  have hcond : ∀ c : Fin 256,
      scatter_S1024x256_S262144x1_S262144x256_1_0_0_1.resultIdx? (ix2 n c)
        (broadcastInDim S262144x1 ![0] bcast_S262144_S262144x1_0 idx) = some (ix2 k d)
      ↔ idx (ix1 n) = BitVec.ofNat 32 k.val ∧ c = d :=
    fun c => (lands2 idx n c k d).trans (and_congr (toInt_eq_code _ k.val k.isLt) Iff.rfl)
  rw [Finset.sum_congr rfl fun c _ => if_congr (hcond c) rfl rfl]
  unfold hit
  by_cases hw : idx (ix1 n) = BitVec.ofNat 32 k.val
  · simp only [hw, true_and, if_true, one_mul]
    rw [Finset.sum_ite_eq' Finset.univ d, if_pos (Finset.mem_univ d)]
  · simp only [hw, false_and, if_false, zero_mul, Finset.sum_const_zero]

end Cert.ReferenceIdeal.Codebook

end
-- ==== Proof.lean ====
/-
  An exponential-moving-average codebook update, kernel against reference, over the extended reals.

  Both programs take 262144 rows of 256 entries, each row tagged with a code word, and per code (1024 of them)
  count the rows and add them up; then they update running cluster sizes and averages with these counts and sums
  and normalise the averages. The reference counts and adds with two scatter-adds into zeros. The kernel walks
  the rows in 128 tiles of 2048 on a 2 × 64 grid: a step multiplies the tile's indicator matrix ("row r has code
  k") with the tile's entries on the matrix unit and accumulates, each half of the grid into its own block; the
  host then adds the two halves. Over the extended reals a matrix product with an indicator matrix is the sum of
  the selected rows, and a sum may be grouped into tiles and halves freely (addition is commutative and
  associative, `0 * x = 0` and `1 * x = x` even at the infinities), so both programs compute the same counts and
  sums; a word that is not one of the 1024 codes selects nothing in the kernel and is dropped by the scatter.
  From there on the two programs apply the same operations with the same constants. Nothing needs the inputs
  to be finite.

  The frames of the two kernel programs are the generated ones; the reference's frame is its generated run.
  No rewrite was applied by the idealization, so `preserves` is trivial.
-/
import proofs.«401097_j33904471835537_2_alg».proof.Defs
import proofs.«401097_j33904471835537_2_alg».proof.Proof.Gen.Kernel
import proofs.«401097_j33904471835537_2_alg».proof.Proof.Gen.Kernel.Frame
import proofs.«401097_j33904471835537_2_alg».proof.Proof.Gen.KernelIdeal
import proofs.«401097_j33904471835537_2_alg».proof.Proof.Gen.KernelIdeal.Frame
import proofs.«401097_j33904471835537_2_alg».proof.Proof.Gen.ReferenceIdeal
import proofs.«401097_j33904471835537_2_alg».proof.Proof.Gen.ReferenceIdeal.Run
import proofs.«401097_j33904471835537_2_alg».proof.Proof.Gen.Pre_finite_inputs
import proofs.«401097_j33904471835537_2_alg».proof.Proof.KernelRun
import proofs.«401097_j33904471835537_2_alg».proof.Proof.ScatterRead
import Idealize.ShloMosaic.Adequacy
import Idealize.ShloMosaic.Init

noncomputable section

open Idealize.ShloMosaic Idealize.ShloMosaic.TcCoe Idealize.SL.Sem Idealize.ShloMosaic.ValueIdx

namespace Cert.ReferenceIdeal.Codebook

open Cert.ReferenceIdeal Cert.ReferenceIdeal.Gen CodebookSums

/-- The reference's counts, as a table. -/
theorem countsRef (idx : IVec S262144 32) :
    Host.scatterAdd (F := Ideal) scatter_S1024_S262144x1_S262144_n_0_0_1
        (broadcastInDim S1024 ![] bcast_S_S1024 (constant S_ .f32 0x00000000#32))
        (broadcastInDim S262144x1 ![0] bcast_S262144_S262144x1_0 idx)
        (broadcastInDim S262144 ![] bcast_S_S262144 (constant S_ .f32 0x3F800000#32))
      = fun j => count (fun n => idx (ix1 n)) (j 0) :=
  funext fun j => by
    obtain ⟨k, rfl⟩ : ∃ k : Fin 1024, j = ix1 k := ⟨j 0, eq_ix1 j⟩
    exact countsRef_apply idx k

/-- The reference's column sums, as a table. -/
theorem totalsRef (idx : IVec S262144 32) (enc : FVec Ideal S262144x256 .f32) :
    Host.scatterAdd (F := Ideal) scatter_S1024x256_S262144x1_S262144x256_1_0_0_1
        (broadcastInDim S1024x256 ![] bcast_S_S1024x256 (constant S_ .f32 0x00000000#32))
        (broadcastInDim S262144x1 ![0] bcast_S262144_S262144x1_0 idx) enc
      = fun j => total (fun n => idx (ix1 n)) (fun n d => enc (ix2 n d)) (j 0) (j 1) :=
  funext fun j => by
    obtain ⟨k, d, rfl⟩ : ∃ (k : Fin 1024) (d : Fin 256), j = ix2 k d := ⟨j 0, j 1, eq_ix2 j⟩
    exact totalsRef_apply idx enc k d

end Cert.ReferenceIdeal.Codebook

namespace Cert.Proof

open Cert.KernelIdeal.Codebook

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the updated sizes, the updated averages and the normalised averages of the same counts
    and sums of arguments that agree. -/
theorem algebraic : Cert.algebraic_KernelIdeal_ReferenceIdeal := by
  intro m ρ m' ρ' _ hagree
  refine ⟨_, _, _, Cert.KernelIdeal.Codebook.run m ρ, ?_⟩
  refine (θ_run Cert.ReferenceIdeal.defs _ _).mono (fun _ h c => ?_) (Cert.ReferenceIdeal.Value.run (F := Ideal) m' ρ')
  obtain ⟨h11, h16, h27, ha0, ha1, ha2, ha3⟩ := h c
  obtain ⟨e0, e1, e2, e3⟩ := hagree c
  refine ⟨h11.trans ?_, h16.trans ?_, h27.trans ?_, ha0, ha1, ha2, ha3⟩
  · rw [e0, e2, Cert.ReferenceIdeal.Codebook.countsRef]; rfl
  · rw [e0, e1, e3, Cert.ReferenceIdeal.Codebook.totalsRef]; rfl
  · rw [e0, e1, e2, e3, Cert.ReferenceIdeal.Codebook.countsRef, Cert.ReferenceIdeal.Codebook.totalsRef]; rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
